-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S3x128 .f32) (main_arg7 : FVec F S128x128 .f32) (main_arg8 : FVec F S128 .f32) (main_arg9 : FVec F S128x1 .f32) (main_arg10 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S3x128x128 .f32) (main_arg6 : FVec F S3x128 .f32) (main_arg7 : FVec F S128x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S1x128 : Shape := ⟨2, ![1, 128]⟩
abbrev S5000x128 : Shape := ⟨2, ![5000, 128]⟩
abbrev S850000x128 : Shape := ⟨2, ![850000, 128]⟩
abbrev S50000x1 : Shape := ⟨2, ![50000, 1]⟩
abbrev S256x128 : Shape := ⟨2, ![256, 128]⟩
abbrev S5000x1 : Shape := ⟨2, ![5000, 1]⟩
abbrev S5000x256 : Shape := ⟨2, ![5000, 256]⟩
abbrev S256 : Shape := ⟨1, ![256]⟩
abbrev S256x1 : Shape := ⟨2, ![256, 1]⟩
abbrev S1x1 : Shape := ⟨2, ![1, 1]⟩

abbrev nBuf : Space → Nat
  | .hbm => 169
  | .vmem => 32
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S3x128x128, .f32⟩
  | 6 => ⟨S3x128, .f32⟩
  | 7 => ⟨S128x128, .f32⟩
  | 8 => ⟨S128, .f32⟩
  | 9 => ⟨S128x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S850000x1, .f32⟩
  | 52 => ⟨S1x128x128, .f32⟩
  | 53 => ⟨S128x128, .f32⟩
  | 54 => ⟨S1x128x128, .f32⟩
  | 55 => ⟨S128x128, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S50000x128, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x128, .f32⟩
  | 74 => ⟨S850000x128, .f32⟩
  | 75 => ⟨S850000x128, .f32⟩
  | 76 => ⟨S_, .f32⟩
  | 77 => ⟨S50000x128, .f32⟩
  | 78 => ⟨S850000x1, .i32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x128, .f32⟩
  | 12 => ⟨S850000x128, .f32⟩
  | 13 => ⟨S850000x128, .f32⟩
  | 14 => ⟨S_, .f32⟩
  | 15 => ⟨S50000x128, .f32⟩
  | 16 => ⟨S850000x1, .i32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x1, .i32⟩
  | 25 => ⟨S256x128, .f32⟩
  | 26 => ⟨S_, .f32⟩
  | 27 => ⟨S50000, .f32⟩
  | 28 => ⟨S_, .f32⟩
  | 29 => ⟨S256, .f32⟩
  | 30 => ⟨S50000x1, .i32⟩
  | 31 => ⟨S256, .f32⟩
  | 32 => ⟨S_, .f32⟩
  | 33 => ⟨S256, .f32⟩
  | 34 => ⟨S256, .f32⟩
  | 35 => ⟨S256x1, .f32⟩
  | 36 => ⟨S256x128, .f32⟩
  | 37 => ⟨S256x128, .f32⟩
  | 38 => ⟨S1x128, .f32⟩
  | 39 => ⟨S1x1, .f32⟩
  | 40 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .i32⟩
  | .local _ .vmem, ⟨23, _⟩ => ⟨S5000x1, .i32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S128x128, .f32⟩
  | .local _ .vmem, ⟨28, _⟩ => ⟨S1x128, .f32⟩
  | .local _ .vmem, ⟨29, _⟩ => ⟨S128x1, .f32⟩
  | .local _ .vmem, ⟨30, _⟩ => ⟨S1x1, .f32⟩
  | .local _ .vmem, ⟨31, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_6 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_c_9 : Ref sig .tc := ⟨.hbm, 87, rfl⟩
abbrev main_v61 : Ref sig .tc := ⟨.hbm, 88, rfl⟩
abbrev main_v62 : Ref sig .tc := ⟨.hbm, 89, rfl⟩
abbrev main_c_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_call2_cst : Ref sig .tc := ⟨.hbm, 105, rfl⟩
abbrev main_call2_v0 : Ref sig .tc := ⟨.hbm, 106, rfl⟩
abbrev main_v76 : Ref sig .tc := ⟨.hbm, 107, rfl⟩
abbrev main_v77 : Ref sig .tc := ⟨.hbm, 108, rfl⟩
abbrev main_c_12 : Ref sig .tc := ⟨.hbm, 109, rfl⟩
abbrev main_v78 : Ref sig .tc := ⟨.hbm, 110, rfl⟩
abbrev main_v79 : Ref sig .tc := ⟨.hbm, 111, rfl⟩
abbrev main_c_13 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_14 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call3_cst : Ref sig .tc := ⟨.hbm, 127, rfl⟩
abbrev main_call3_v0 : Ref sig .tc := ⟨.hbm, 128, rfl⟩
abbrev main_v93 : Ref sig .tc := ⟨.hbm, 129, rfl⟩
abbrev main_v94 : Ref sig .tc := ⟨.hbm, 130, rfl⟩
abbrev main_c_15 : Ref sig .tc := ⟨.hbm, 131, rfl⟩
abbrev main_v95 : Ref sig .tc := ⟨.hbm, 132, rfl⟩
abbrev main_v96 : Ref sig .tc := ⟨.hbm, 133, rfl⟩
abbrev main_c_16 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_17 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_call4_cst : Ref sig .tc := ⟨.hbm, 149, rfl⟩
abbrev main_call4_v0 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_18 : Ref sig .tc := ⟨.hbm, 154, rfl⟩
abbrev main_v113 : Ref sig .tc := ⟨.hbm, 155, rfl⟩
abbrev main_cst_19 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_20 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_scratch0 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc5_stg4_0 : Ref sig .tc := ⟨.vmem, 30, rfl⟩
abbrev cc5_stg5_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem1_0 : DmaSem sig := 26
abbrev cc5_sem2_0 : DmaSem sig := 27
abbrev cc5_sem3_0 : DmaSem sig := 28
abbrev cc5_sem4_0 : DmaSem sig := 29
abbrev cc5_sem5_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  slices_S3x128_S1x128_0_0 : S3x128.Slices ![0, 0] S1x128
  shapeCasts_S1x128_S128 : S1x128.ShapeCasts S128
  slices_S3x128_S1x128_1_0 : S3x128.Slices ![1, 0] S1x128
  slices_S3x128_S1x128_2_0 : S3x128.Slices ![2, 0] S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  shapeCasts_S128x128_S128x128 : S128x128.ShapeCasts S128x128
  shapeCasts_S50000_S50000x1 : S50000.ShapeCasts S50000x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  bcast_S_S256 : S_.BroadcastsInDim S256 (![] : Fin 0 → Fin S256.rank)
  bcast_S50000_S50000x1_0 : S50000.BroadcastsInDim S50000x1 (![0] : Fin 1 → Fin S50000x1.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S128_S1x128 : S128.ShapeCasts S1x128
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x256_S5000x128_S256x128_0_0_1_1_n_n_wf : DotDims.WF S5000x256 S5000x128 S256x128 [0] [0] [1] [1] [] []
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .i32 = 32 ∨ (Rect.block (s := S50000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x128.size a ≤ S256x128.size a
  hwx5_0 : ∀ i : grid5.Coords, EltTy.bits .f32 = 32 ∨ (Rect.block (s := S256x128) S256x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1.size a ≤ S128x1.size a
  hwx5_3 : ∀ i : grid5.Coords, EltTy.bits .f32 = 32 ∨ (Rect.block (s := S128x1) S128x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x1.size a ≤ S256x1.size a
  hwx5_5 : ∀ i : grid5.Coords, EltTy.bits .f32 = 32 ∨ (Rect.block (s := S256x1) S256x1.size (cc5_transform_5 i) (hinb5_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v93) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v110) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v111) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v112) S256x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v121) S256x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S128x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v123) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v124) S256x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x128x128 : Shape := ⟨3, ![1, 128, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S1x1 : Shape := ⟨2, ![1, 1]⟩

abbrev nBuf : Space → Nat
  | .hbm => 290
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S3x128x128, .f32⟩
  | 6 => ⟨S3x128, .f32⟩
  | 7 => ⟨S128x128, .f32⟩
  | 8 => ⟨S128, .f32⟩
  | 9 => ⟨S128x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S1x128x128, .f32⟩
  | 75 => ⟨S128x128, .f32⟩
  | 76 => ⟨S1x128, .f32⟩
  | 77 => ⟨S128, .f32⟩
  | 78 => ⟨S50000, .i32⟩
  | 79 => ⟨S850000, .i32⟩
  | 80 => ⟨S850000, .i32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S50000x128, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x128, .f32⟩
  | 124 => ⟨S850000x1, .f32⟩
  | 125 => ⟨S850000x128, .f32⟩
  | 126 => ⟨S850000x128, .f32⟩
  | 127 => ⟨S_, .f32⟩
  | _ => ⟨S50000x128, .f32⟩

abbrev hbmTy0_1 (i : Nat) : BufTy := match i % 128 with
  | 0 => ⟨S50000x128, .f32⟩
  | 1 => ⟨S850000x1, .i32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S1x128x128, .f32⟩
  | 10 => ⟨S128x128, .f32⟩
  | 11 => ⟨S1x128, .f32⟩
  | 12 => ⟨S128, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128x128, .f32⟩
  | 73 => ⟨S128x128, .f32⟩
  | 74 => ⟨S1x128, .f32⟩
  | 75 => ⟨S128, .f32⟩
  | 76 => ⟨S50000, .i32⟩
  | 77 => ⟨S850000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S50000x128, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S50000x128, .f32⟩

abbrev hbmTy0_2 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S_, .f32⟩
  | 8 => ⟨S256x128, .f32⟩
  | 9 => ⟨S50000x1, .i32⟩
  | 10 => ⟨S256x128, .f32⟩
  | 11 => ⟨S_, .f32⟩
  | 12 => ⟨S50000, .f32⟩
  | 13 => ⟨S_, .f32⟩
  | 14 => ⟨S256, .f32⟩
  | 15 => ⟨S50000x1, .i32⟩
  | 16 => ⟨S256, .f32⟩
  | 17 => ⟨S_, .f32⟩
  | 18 => ⟨S256, .f32⟩
  | 19 => ⟨S256, .f32⟩
  | 20 => ⟨S256x1, .f32⟩
  | 21 => ⟨S256x128, .f32⟩
  | 22 => ⟨S256x128, .f32⟩
  | 23 => ⟨S256x128, .f32⟩
  | 24 => ⟨S1x128, .f32⟩
  | 25 => ⟨S256x128, .f32⟩
  | 26 => ⟨S256x128, .f32⟩
  | 27 => ⟨S_, .f32⟩
  | 28 => ⟨S256x128, .f32⟩
  | 29 => ⟨S256x128, .f32⟩
  | 30 => ⟨S256x1, .f32⟩
  | 31 => ⟨S1x1, .f32⟩
  | 32 => ⟨S256x1, .f32⟩
  | 33 => ⟨S256x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_20 : Ref sig .tc := ⟨.hbm, 144, rfl⟩
abbrev main_v103 : Ref sig .tc := ⟨.hbm, 145, rfl⟩
abbrev main_cst_21 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_22 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_23 : Ref sig .tc := ⟨.hbm, 154, rfl⟩
abbrev main_call4_v0 : Ref sig .tc := ⟨.hbm, 155, rfl⟩
abbrev main_call4_v1 : Ref sig .tc := ⟨.hbm, 156, rfl⟩
abbrev main_v110 : Ref sig .tc := ⟨.hbm, 157, rfl⟩
abbrev main_c_24 : Ref sig .tc := ⟨.hbm, 158, rfl⟩
abbrev main_v111 : Ref sig .tc := ⟨.hbm, 159, rfl⟩
abbrev main_v112 : Ref sig .tc := ⟨.hbm, 160, rfl⟩
abbrev main_c_25 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_26 : Ref sig .tc := ⟨.hbm, 167, rfl⟩
abbrev main_v118 : Ref sig .tc := ⟨.hbm, 168, rfl⟩
abbrev main_v119 : Ref sig .tc := ⟨.hbm, 169, rfl⟩
abbrev main_c_27 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_28 : Ref sig .tc := ⟨.hbm, 178, rfl⟩
abbrev main_v127 : Ref sig .tc := ⟨.hbm, 179, rfl⟩
abbrev main_v128 : Ref sig .tc := ⟨.hbm, 180, rfl⟩
abbrev main_c_29 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_30 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_call5_cst : Ref sig .tc := ⟨.hbm, 197, rfl⟩
abbrev main_call5_v0 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_31 : Ref sig .tc := ⟨.hbm, 207, rfl⟩
abbrev main_v151 : Ref sig .tc := ⟨.hbm, 208, rfl⟩
abbrev main_cst_32 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_33 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_34 : Ref sig .tc := ⟨.hbm, 217, rfl⟩
abbrev main_call6_v0 : Ref sig .tc := ⟨.hbm, 218, rfl⟩
abbrev main_call6_v1 : Ref sig .tc := ⟨.hbm, 219, rfl⟩
abbrev main_v158 : Ref sig .tc := ⟨.hbm, 220, rfl⟩
abbrev main_c_35 : Ref sig .tc := ⟨.hbm, 221, rfl⟩
abbrev main_v159 : Ref sig .tc := ⟨.hbm, 222, rfl⟩
abbrev main_v160 : Ref sig .tc := ⟨.hbm, 223, rfl⟩
abbrev main_c_36 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_c_37 : Ref sig .tc := ⟨.hbm, 230, rfl⟩
abbrev main_v166 : Ref sig .tc := ⟨.hbm, 231, rfl⟩
abbrev main_v167 : Ref sig .tc := ⟨.hbm, 232, rfl⟩
abbrev main_c_38 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_c_39 : Ref sig .tc := ⟨.hbm, 241, rfl⟩
abbrev main_v175 : Ref sig .tc := ⟨.hbm, 242, rfl⟩
abbrev main_v176 : Ref sig .tc := ⟨.hbm, 243, rfl⟩
abbrev main_c_40 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_cst_41 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_call7_cst : Ref sig .tc := ⟨.hbm, 260, rfl⟩
abbrev main_call7_v0 : Ref sig .tc := ⟨.hbm, 261, rfl⟩
abbrev main_v191 : Ref sig .tc := ⟨.hbm, 262, rfl⟩
abbrev main_cst_42 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_cst_43 : Ref sig .tc := ⟨.hbm, 267, rfl⟩
abbrev main_v195 : Ref sig .tc := ⟨.hbm, 268, rfl⟩
abbrev main_cst_44 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_cst_45 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_call8_cst : Ref sig .tc := ⟨.hbm, 283, rfl⟩
abbrev main_call8_v0 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KI.Layer0.lean ====
/-
  The dense projection of one graph-convolution layer, as a pipelined kernel region: the node features
  (50000 rows of 128) are cut into ten blocks of 5000 rows; at each grid point the body reads the block
  and the whole 128 x 128 weight matrix and stores their matrix product into the output block.
  This module fixes, at arbitrary entry contents of the unscoped buffers, what every staging buffer holds
  after the body at every point, and proves the body's triple at every point.
-/
import proofs.«404915_j30949534335549_1_alg».proof.Proof.Gen.KernelIdeal.Launch
import proofs.«404915_j30949534335549_1_alg».proof.Proof.Gen.KernelIdeal.Skeleton
import proofs.«404915_j30949534335549_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-- The block of window w's array that grid point t works on, read off the entry contents. -/
def blk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Input window 0's staging buffer holds its block whenever the body runs: fetched there, or left in
    place since the last fetch (its block index has not moved). -/
theorem found_of0 {c : Dev nD} (dat : Dat τ (Elt F) Unit ℕ (UR sig nD τ) ℕ cfg0 c)
    (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block whenever the body runs: fetched there, or left in
    place since the last fetch (its block index has not moved). -/
theorem found_of1 {c : Dev nD} (dat : Dat τ (Elt F) Unit ℕ (UR sig nD τ) ℕ cfg0 c)
    (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The body reads each staging buffer whole and writes the output's whole. -/
abbrev rowsRect : Rect S5000x128 := Rect.unit (s := S5000x128) ![0, 0] S5000x128.size inb_S5000x128_S5000x128_0_0
abbrev wRect : Rect S128x128 := Rect.unit (s := S128x128) ![0, 0] S128x128.size inb_S128x128_S128x128_0_0

/-- What the body leaves in the output's staging buffer: the product of the row block and the weights,
    stored as one piece over the whole buffer. -/
def prodBlock (x : Vec F S5000x128 .f32) (w : Vec F S128x128 .f32) : Vec F S5000x128 .f32 :=
  View.canon [⟨rowsRect, k0_pay1 (View.ld x rowsRect) (View.ld w wRect)⟩]

theorem prodBlock_cover (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

set_option maxHeartbeats 1000000 in
/-- The body on whole staging memrefs: the two inputs at contents x and w are read and handed back unchanged;
    the output, whatever it held, ends at their product block. -/
theorem body_triple (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (prodBlock x w)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prodBlock_cover _)

/-- The region's proof data on core c: its arrays as found; after the body each input's buffer still at its
    block and the output's at the product of the two blocks; the invariant between points is the scoped
    buffers no window stages and the generator register, untouched; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => prodBlock (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blk V c 0 t := by dsimp only [dat]
theorem after_w (c : Dev nD) (t : Fin cfg0.N) : (dat V c).after 1 t = blk V c 1 t := by dsimp only [dat]
theorem after_out (c : Dev nD) (t : Fin cfg0.N) :
    (dat V c).after 2 t = prodBlock (blk V c 0 t) (blk V c 1 t) := by dsimp only [dat]

theorem found_rows (c : Dev nD) (t : Fin cfg0.N) (d) : (dat V c).before 0 t d = blk V c 0 t :=
  found_of0 V (dat V c) (dat_A V c 0) (after_rows V c) t d
theorem found_w (c : Dev nD) (t : Fin cfg0.N) (d) : (dat V c).before 1 t d = blk V c 1 t :=
  found_of1 V (dat V c) (dat_A V c 1) (after_w V c) t d

/-- The body at any grid point, between the invariant before it and after it. -/
theorem body_at (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t))) := by
  unfold bodyAt0
  simp only [found_rows, found_w]
  rw [show (dat V c).Φ t.succ = (dat V c).Φ t.castSucc from rfl,
    show (dat V c).owesAt () t.succ = (dat V c).owesAt () t.castSucc from rfl,
    after_rows, after_w, after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for this region, at every point. -/
theorem body_obligation (c : Dev nD) : BodyObligation (dat (F := F) V c) (defs₀ (F := F)) Variants.none () Set.univ := fun t => by
  rw [bigSep_W0, bigSep_W0]
  exact body_at V c t

end Cert.KernelIdeal.Layer0

end
-- ==== Proof.KI.PoolDefs.lean ====
/-
  The per-graph pooling as a kernel region: the node features (50000 rows of 128) and the nodes' graph ids
  (50000 x 1) are cut into ten blocks of 5000 rows.  A 256 x 128 accumulator lives in a scratch buffer across
  the grid points: the first point clears it; every point adds, for each graph g, the rows of the feature
  block whose id is g (a product with the block's one-hot matrix); the last point copies the accumulator to
  the output block, which is written back once.
  This module names what the accumulator holds after each point.
-/
import proofs.«404915_j30949534335549_1_alg».proof.Proof.Gen.KernelIdeal.Launch
import proofs.«404915_j30949534335549_1_alg».proof.Proof.Gen.KernelIdeal.Skeleton
import proofs.«404915_j30949534335549_1_alg».proof.Proof.Gen.KernelIdeal.Points
import Idealize.ShloMosaic.Lib.Pipeline.FrameBody

set_option maxRecDepth 16384

noncomputable section

namespace Cert.KernelIdeal.Pool

open Idealize.ShloMosaic Idealize.ShloMosaic.TcCoe
open Idealize.SL Idealize.SL.Sem
open Idealize.ShloMosaic.Pipeline (Dat Cfg Window BodyObligation cellOf)
open Cert.KernelIdeal Cert.KernelIdeal.Gen

variable {F : FTy → Type} [FloatOps F]

-- the unscoped buffers' contents when the region is entered
variable (V : (c : Dev nD) → (b : Ref sig .tc) → Buf (Elt F) ((c : Thread nD τ).loc b))

/-- The block of window w's array that grid point t works on, read off the entry contents
    (window 0: node features, window 1: graph ids, window 2: the output). -/
def blk (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The body reads and writes every buffer whole. -/
abbrev featRect : Rect S5000x128 := Rect.unit (s := S5000x128) ![0, 0] S5000x128.size inb_S5000x128_S5000x128_0_0
abbrev idRect : Rect S5000x1 := Rect.unit (s := S5000x1) ![0, 0] S5000x1.size inb_S5000x1_S5000x1_0_0
abbrev accRect : Rect S256x128 := Rect.unit (s := S256x128) ![0, 0] S256x128.size inb_S256x128_S256x128_0_0

/-- The cleared accumulator. -/
def accZero : Vec F S256x128 .f32 := View.canon [⟨accRect, k4_pay1 (F := F)⟩]

/-- The accumulator after one point, from the point's id block, feature block and the accumulator before. -/
def accStep (ids : Vec F S5000x1 .i32) (feat : Vec F S5000x128 .f32) (a : Vec F S256x128 .f32) : Vec F S256x128 .f32 :=
  View.canon [⟨accRect, k4_pay2 (View.ld ids idRect) (View.ld feat featRect) (View.ld a accRect)⟩]

/-- The accumulator after point n (for n beyond the grid, after the last point). -/
def accAfter (c : Dev nD) : ℕ → Vec F S256x128 .f32
  | 0 => accStep (blk V c 1 t4_0) (blk V c 0 t4_0) accZero
  | n + 1 => if h : n + 1 < cfg4.N then accStep (blk V c 1 ⟨n + 1, h⟩) (blk V c 0 ⟨n + 1, h⟩) (accAfter c n) else accAfter c n

end Cert.KernelIdeal.Pool

end
-- ==== Proof.KI.Pool.lean ====
/-
  The pooling region's proof data and body: the accumulator scratch is carried from grid point to grid point
  in the invariant; the output's staging buffer is idle until the last point, which copies the accumulator
  into it.
-/
import proofs.«404915_j30949534335549_1_alg».proof.Proof.KI.PoolDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Between grid points: the scratch accumulator whole — at anything before the first point, at the running
    sum after point n-1 before point n —, every other scoped buffer no window stages, the generator register. -/
def inv (c : Dev nD) (n : Fin (cfg4.N + 1)) : sProp 𝕄 :=
  iprop((∃ f : Buf (Elt F) ((c : Thread nD τ).loc cc4_scratch0),
      (((c : Thread nD τ).loc cc4_scratch0) ↦{fullShare} f) ∗ ⌜n.val ≠ 0 → f = accAfter V c (n.val - 1)⌝)
    ∗ Pipeline.scopedRestBut (Ix := Unit) (Name := ℕ) (U := UR sig nD τ) (Lvl := ℕ) (Val := Elt F) spec4 c [cc4_scratch0]
    ∗ ∃ r, prngReg c r)

/-- The region's proof data on core c. -/
def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => accAfter V c t.val
  Φ n := inv V c n
  q _ := fullShare
  owed _ := 0

theorem dat_A (c : Dev nD) (w : Fin cfg4.W) : (dat V c).A w = V c (Pipeline.arrRef spec4 w) := by
  dsimp only [dat]

theorem after_feat (c : Dev nD) (t : Fin cfg4.N) : (dat V c).after 0 t = blk V c 0 t := by dsimp only [dat]
theorem after_ids (c : Dev nD) (t : Fin cfg4.N) : (dat V c).after 1 t = blk V c 1 t := by dsimp only [dat]
theorem after_out (c : Dev nD) (t : Fin cfg4.N) : (dat V c).after 2 t = accAfter V c t.val := by dsimp only [dat]

/-- The first conditional of the body, as the kernel computes it: the grid coordinate is zero. -/
abbrev isFirst (i : grid4.Coords) : Prop :=
  Scalar.cmpi .ne (Scalar.extui (Scalar.cmpi .eq (BitVec.ofNat 32 (i 0).val) 0#32) : BitVec 32) 0#32 = 1#1

/-- The offsets of every rectangle the body uses are zero. -/
theorem off_zero : (![0, 0] : Fin 2 → ℕ) = fun _ => 0 := by
  funext a; fin_cases a <;> rfl

theorem acc_cover (p0 : Vec F S256x128 .f32) (L : List (View.Piece (Elt F) S256x128 .f32)) (y : S256x128.Idx) :
    ∃ pc ∈ ((⟨accRect, p0⟩ : View.Piece (Elt F) S256x128 .f32) :: L), y ∈ pc.1.set :=
  ⟨_, List.mem_cons_self, View.mem_set_unit_zero (S := S256x128) off_zero inb_S256x128_S256x128_0_0 y⟩

set_option maxHeartbeats 1000000 in
/-- A point that is neither the first nor the last: the inputs are read and handed back, the output's buffer is
    not touched, the accumulator goes from a to one more step. -/
theorem body_mid (c : Dev nD) (E : Set ℕ) (i : grid4.Coords)
    (hc1 : ¬ isFirst i) (hc2 : ¬ k4_cond2 i = 1#1)
    (arg1 : Memref sig .tc .vmem S5000x128 .f32) (harg1 : arg1.IsWhole)
    (arg2 : Memref sig .tc .vmem S5000x1 .i32) (harg2 : arg2.IsWhole)
    (arg3 : Memref sig .tc .vmem S256x128 .f32) (harg3 : arg3.IsWhole)
    (arg4 : Memref sig .tc .vmem S256x128 .f32) (harg4 : arg4.IsWhole)
    (feat : Vec F S5000x128 .f32) (ids : Vec F S5000x1 .i32) (X3 a : Vec F S256x128 .f32) (K : PUnit → sProp 𝕄) :
    iprop(owns (c : Thread nD τ) arg1 fullShare feat ∗ owns (c : Thread nD τ) arg2 fullShare ids
        ∗ owns (c : Thread nD τ) arg3 fullShare X3 ∗ owns (c : Thread nD τ) arg4 fullShare a
        ∗ (iprop(owns (c : Thread nD τ) arg1 fullShare feat ∗ owns (c : Thread nD τ) arg2 fullShare ids
            ∗ owns (c : Thread nD τ) arg3 fullShare X3
            ∗ owns (c : Thread nD τ) arg4 fullShare (accStep ids feat a)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (acc_cover _ _)

set_option maxHeartbeats 1000000 in
/-- The first point: the accumulator, whatever it held, is cleared and takes one step. -/
theorem body_first (c : Dev nD) (E : Set ℕ) (i : grid4.Coords)
    (hc1 : isFirst i) (hc2 : ¬ k4_cond2 i = 1#1)
    (arg1 : Memref sig .tc .vmem S5000x128 .f32) (harg1 : arg1.IsWhole)
    (arg2 : Memref sig .tc .vmem S5000x1 .i32) (harg2 : arg2.IsWhole)
    (arg3 : Memref sig .tc .vmem S256x128 .f32) (harg3 : arg3.IsWhole)
    (arg4 : Memref sig .tc .vmem S256x128 .f32) (harg4 : arg4.IsWhole)
    (feat : Vec F S5000x128 .f32) (ids : Vec F S5000x1 .i32) (X3 a : Vec F S256x128 .f32) (K : PUnit → sProp 𝕄) :
    iprop(owns (c : Thread nD τ) arg1 fullShare feat ∗ owns (c : Thread nD τ) arg2 fullShare ids
        ∗ owns (c : Thread nD τ) arg3 fullShare X3 ∗ owns (c : Thread nD τ) arg4 fullShare a
        ∗ (iprop(owns (c : Thread nD τ) arg1 fullShare feat ∗ owns (c : Thread nD τ) arg2 fullShare ids
            ∗ owns (c : Thread nD τ) arg3 fullShare X3
            ∗ owns (c : Thread nD τ) arg4 fullShare (accStep ids feat accZero)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (acc_cover _ _)]
  unfold accStep accZero
  sl_unfold_run_names
  rw [View.canon_cons_unit_zero (S := S256x128) off_zero, View.canon_unit_zero (S := S256x128) off_zero,
    View.canon_unit_zero (S := S256x128) off_zero, View.readCov_unit_zero (S := S256x128) _ off_zero,
    View.ld_unit_zero (S := S256x128) off_zero]
  rfl

set_option maxHeartbeats 1000000 in
/-- The last point: the accumulator takes one step and is copied into the output's buffer, whatever that held. -/
theorem body_last (c : Dev nD) (E : Set ℕ) (i : grid4.Coords)
    (hc1 : ¬ isFirst i) (hc2 : k4_cond2 i = 1#1)
    (arg1 : Memref sig .tc .vmem S5000x128 .f32) (harg1 : arg1.IsWhole)
    (arg2 : Memref sig .tc .vmem S5000x1 .i32) (harg2 : arg2.IsWhole)
    (arg3 : Memref sig .tc .vmem S256x128 .f32) (harg3 : arg3.IsWhole)
    (arg4 : Memref sig .tc .vmem S256x128 .f32) (harg4 : arg4.IsWhole)
    (feat : Vec F S5000x128 .f32) (ids : Vec F S5000x1 .i32) (X3 a : Vec F S256x128 .f32) (K : PUnit → sProp 𝕄) :
    iprop(owns (c : Thread nD τ) arg1 fullShare feat ∗ owns (c : Thread nD τ) arg2 fullShare ids
        ∗ owns (c : Thread nD τ) arg3 fullShare X3 ∗ owns (c : Thread nD τ) arg4 fullShare a
        ∗ (iprop(owns (c : Thread nD τ) arg1 fullShare feat ∗ owns (c : Thread nD τ) arg2 fullShare ids
            ∗ owns (c : Thread nD τ) arg3 fullShare (accStep ids feat a)
            ∗ owns (c : Thread nD τ) arg4 fullShare (accStep ids feat a)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (acc_cover _ _)]
    unfold accStep
    sl_unfold_run_names
    rw [View.canon_unit_zero (S := S256x128) off_zero, View.canon_unit_zero (S := S256x128) off_zero,
      View.readCov_unit_zero (S := S256x128) _ off_zero]
    rfl
  iexists _; isplitr
  swap; · iexact H4
  ipureintro
  exact View.read_writes_eq_canon _ _ _ (acc_cover _ _)

/-! ## The same three, with the accumulator the region's own scratch buffer, whole -/

theorem body_first_scratch (c : Dev nD) (E : Set ℕ) (i : grid4.Coords)
    (hc1 : isFirst i) (hc2 : ¬ k4_cond2 i = 1#1)
    (arg1 : Memref sig .tc .vmem S5000x128 .f32) (harg1 : arg1.IsWhole)
    (arg2 : Memref sig .tc .vmem S5000x1 .i32) (harg2 : arg2.IsWhole)
    (arg3 : Memref sig .tc .vmem S256x128 .f32) (harg3 : arg3.IsWhole)
    (feat : Vec F S5000x128 .f32) (ids : Vec F S5000x1 .i32) (X3 a : Vec F S256x128 .f32) (K : PUnit → sProp 𝕄) :
    iprop(owns (c : Thread nD τ) arg1 fullShare feat ∗ owns (c : Thread nD τ) arg2 fullShare ids
        ∗ owns (c : Thread nD τ) arg3 fullShare X3 ∗ (((c : Thread nD τ).loc cc4_scratch0) ↦{fullShare} a)
        ∗ (iprop(owns (c : Thread nD τ) arg1 fullShare feat ∗ owns (c : Thread nD τ) arg2 fullShare ids
            ∗ owns (c : Thread nD τ) arg3 fullShare X3
            ∗ (((c : Thread nD τ).loc cc4_scratch0) ↦{fullShare} accStep ids feat accZero)) -∗ K ⟨⟩))
      ⊢ wp frame (wpE (defs₀ (F := F)) Variants.none c none) E
          (cc4__pool_kernel i arg1 harg1 arg2 harg2 arg3 harg3 (Memref.whole cc4_scratch0) (Memref.isWhole_whole _)) K := by
  have T := body_first c E i hc1 hc2 arg1 harg1 arg2 harg2 arg3 harg3 (Memref.whole cc4_scratch0) (Memref.isWhole_whole _) feat ids X3 a K
  simp only [owns_whole] at T
  exact T

theorem body_mid_scratch (c : Dev nD) (E : Set ℕ) (i : grid4.Coords)
    (hc1 : ¬ isFirst i) (hc2 : ¬ k4_cond2 i = 1#1)
    (arg1 : Memref sig .tc .vmem S5000x128 .f32) (harg1 : arg1.IsWhole)
    (arg2 : Memref sig .tc .vmem S5000x1 .i32) (harg2 : arg2.IsWhole)
    (arg3 : Memref sig .tc .vmem S256x128 .f32) (harg3 : arg3.IsWhole)
    (feat : Vec F S5000x128 .f32) (ids : Vec F S5000x1 .i32) (X3 a : Vec F S256x128 .f32) (K : PUnit → sProp 𝕄) :
    iprop(owns (c : Thread nD τ) arg1 fullShare feat ∗ owns (c : Thread nD τ) arg2 fullShare ids
        ∗ owns (c : Thread nD τ) arg3 fullShare X3 ∗ (((c : Thread nD τ).loc cc4_scratch0) ↦{fullShare} a)
        ∗ (iprop(owns (c : Thread nD τ) arg1 fullShare feat ∗ owns (c : Thread nD τ) arg2 fullShare ids
            ∗ owns (c : Thread nD τ) arg3 fullShare X3
            ∗ (((c : Thread nD τ).loc cc4_scratch0) ↦{fullShare} accStep ids feat a)) -∗ K ⟨⟩))
      ⊢ wp frame (wpE (defs₀ (F := F)) Variants.none c none) E
          (cc4__pool_kernel i arg1 harg1 arg2 harg2 arg3 harg3 (Memref.whole cc4_scratch0) (Memref.isWhole_whole _)) K := by
  have T := body_mid c E i hc1 hc2 arg1 harg1 arg2 harg2 arg3 harg3 (Memref.whole cc4_scratch0) (Memref.isWhole_whole _) feat ids X3 a K
  simp only [owns_whole] at T
  exact T

theorem body_last_scratch (c : Dev nD) (E : Set ℕ) (i : grid4.Coords)
    (hc1 : ¬ isFirst i) (hc2 : k4_cond2 i = 1#1)
    (arg1 : Memref sig .tc .vmem S5000x128 .f32) (harg1 : arg1.IsWhole)
    (arg2 : Memref sig .tc .vmem S5000x1 .i32) (harg2 : arg2.IsWhole)
    (arg3 : Memref sig .tc .vmem S256x128 .f32) (harg3 : arg3.IsWhole)
    (feat : Vec F S5000x128 .f32) (ids : Vec F S5000x1 .i32) (X3 a : Vec F S256x128 .f32) (K : PUnit → sProp 𝕄) :
    iprop(owns (c : Thread nD τ) arg1 fullShare feat ∗ owns (c : Thread nD τ) arg2 fullShare ids
        ∗ owns (c : Thread nD τ) arg3 fullShare X3 ∗ (((c : Thread nD τ).loc cc4_scratch0) ↦{fullShare} a)
        ∗ (iprop(owns (c : Thread nD τ) arg1 fullShare feat ∗ owns (c : Thread nD τ) arg2 fullShare ids
            ∗ owns (c : Thread nD τ) arg3 fullShare (accStep ids feat a)
            ∗ (((c : Thread nD τ).loc cc4_scratch0) ↦{fullShare} accStep ids feat a)) -∗ K ⟨⟩))
      ⊢ wp frame (wpE (defs₀ (F := F)) Variants.none c none) E
          (cc4__pool_kernel i arg1 harg1 arg2 harg2 arg3 harg3 (Memref.whole cc4_scratch0) (Memref.isWhole_whole _)) K := by
  have T := body_last c E i hc1 hc2 arg1 harg1 arg2 harg2 arg3 harg3 (Memref.whole cc4_scratch0) (Memref.isWhole_whole _) feat ids X3 a K
  simp only [owns_whole] at T
  exact T

/-! ## The two conditions of the body, and where the output is idle, over the ten grid points -/

/-- The first conditional holds at point 0 only. -/
theorem isFirst_iff : ∀ t : Fin cfg4.N, isFirst (grid4.coords t) ↔ t.val = 0 :=
  (by decide +kernel : ∀ t : Fin grid4.N, isFirst (grid4.coords t) ↔ t.val = 0)

/-- The second conditional holds at point 9 only. -/
theorem isLast_iff : ∀ t : Fin cfg4.N, k4_cond2 (grid4.coords t) = 1#1 ↔ t.val = 9 :=
  (by decide +kernel : ∀ t : Fin grid4.N, k4_cond2 (grid4.coords t) = 1#1 ↔ t.val = 9)

/-- Before the last point the output window is idle and is not written back; at the last point it is live. -/
theorem idle_out : ∀ t : Fin cfg4.N, t.val ≠ 9 → cfg4.idle 2 (cfg4.grid.coords t) = true := by decide +kernel
theorem noflush_out : ∀ t : Fin cfg4.N, t.val ≠ 9 → (cfg4.win 2).flush t = false := by decide +kernel
theorem live_out : ∀ t : Fin cfg4.N, t.val = 9 → cfg4.idle 2 (cfg4.grid.coords t) = false := by decide +kernel

/-! ## What the input windows' buffers hold when the body runs -/

theorem found_of0 {c : Dev nD} (dat : Dat τ (Elt F) Unit ℕ (UR sig nD τ) ℕ cfg4 c)
    (hA : dat.A 0 = V c (Pipeline.arrRef spec4 0))
    (hafter : ∀ t, dat.after 0 t = blk V c 0 t) (t : Fin cfg4.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found_of1 {c : Dev nD} (dat : Dat τ (Elt F) Unit ℕ (UR sig nD τ) ℕ cfg4 c)
    (hA : dat.A 1 = V c (Pipeline.arrRef spec4 1))
    (hafter : ∀ t, dat.after 1 t = blk V c 1 t) (t : Fin cfg4.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem found_feat (c : Dev nD) (t : Fin cfg4.N) (d) : (dat V c).before 0 t d = blk V c 0 t :=
  found_of0 V (dat V c) (dat_A V c 0) (after_feat V c) t d
theorem found_ids (c : Dev nD) (t : Fin cfg4.N) (d) : (dat V c).before 1 t d = blk V c 1 t :=
  found_of1 V (dat V c) (dat_A V c 1) (after_ids V c) t d

/-! ## The running sum, one step at a time -/

theorem accAfter_zero (c : Dev nD) (t : Fin cfg4.N) (h : t.val = 0) :
    accAfter V c t.val = accStep (blk V c 1 t) (blk V c 0 t) accZero := by
  obtain ⟨n, hn⟩ := t
  obtain rfl : n = 0 := h
  rfl

theorem accAfter_pos (c : Dev nD) (t : Fin cfg4.N) (h : t.val ≠ 0) :
    accAfter V c t.val = accStep (blk V c 1 t) (blk V c 0 t) (accAfter V c (t.val - 1)) := by
  obtain ⟨n, hn⟩ := t
  cases n with
  | zero => exact absurd rfl h
  | succ n =>
    show accAfter V c (n + 1) = _
    rw [accAfter, dif_pos hn]; rfl

set_option maxHeartbeats 1000000 in
/-- The body at any grid point, between the invariant before it and after it. -/
theorem body_at (c : Dev nD) (t : Fin cfg4.N) :
    iprop((dat V c).Φ t.castSucc ∗ (dat V c).owesAt () t.castSucc
      ∗ (∃ d, owns (c : Thread nD τ) (st4_0 t) fullShare ((dat V c).before 0 t d))
      ∗ (∃ d, owns (c : Thread nD τ) (st4_1 t) fullShare ((dat V c).before 1 t d))
      ∗ (∃ d, owns (c : Thread nD τ) (st4_2 t) fullShare ((dat V c).before 2 t d)))
    ⊢ wp frame (wpE (defs₀ (F := F)) Variants.none c none) Set.univ (bodyAt4 t) (fun _ =>
      iprop((dat V c).Φ t.succ ∗ (dat V c).owesAt () t.succ
        ∗ owns (c : Thread nD τ) (st4_0 t) fullShare ((dat V c).after 0 t)
        ∗ owns (c : Thread nD τ) (st4_1 t) fullShare ((dat V c).after 1 t)
        ∗ (dat V c).leavesExact 2 t)) := by
  unfold bodyAt4
  simp only [found_feat, found_ids]
  rw [show (dat V c).owesAt () t.succ = (dat V c).owesAt () t.castSucc from rfl, after_feat, after_ids]
  rw [show (dat V c).Φ t.castSucc = inv V c t.castSucc from rfl, show (dat V c).Φ t.succ = inv V c t.succ from rfl]
  unfold inv
  have hN : t.val < 10 := lt_of_lt_of_eq t.isLt (show cfg4.N = 10 from N_4)
  have hsucc : t.succ.val - 1 = t.val := by rw [Fin.val_succ]; omega
  by_cases h0 : t.val = 0
  · -- the first point
    have hi : isFirst (grid4.coords t) := (isFirst_iff t).mpr h0
    have hl : ¬ k4_cond2 (grid4.coords t) = 1#1 := fun h => by have := (isLast_iff t).mp h; omega
    rw [Dat.leavesExact_idle (dat V c) 2 t (idle_out t (by omega)) (noflush_out t (by omega))]
    iintro ⟨⟨⟨%f, Hs, -⟩, Hrest, Hg⟩, Ho, ⟨%d0, H0⟩, ⟨%d1, H1⟩, ⟨%d2, H2⟩⟩
    iapply (body_first_scratch c Set.univ _ hi hl _ _ _ _ _ _ (blk V c 0 t) (blk V c 1 t) ((dat V c).before 2 t d2) f _)
    isplitl [H0]; · iexact H0
    isplitl [H1]; · iexact H1
    isplitl [H2]; · iexact H2
    isplitl [Hs]; · iexact Hs
    iintro ⟨H0, H1, H2, Hs⟩
    isplitl [Hs Hrest Hg]
    · isplitl [Hs]
      · iexists _
        isplitl [Hs]; · iexact Hs
        ipureintro; intro _; rw [hsucc]; exact (accAfter_zero V c t h0).symm
      isplitl [Hrest]; · iexact Hrest
      iexact Hg
    isplitl [Ho]; · iexact Ho
    isplitl [H0]; · iexact H0
    isplitl [H1]; · iexact H1
    iexists d2; iexact H2
  · have hi : ¬ isFirst (grid4.coords t) := fun h => h0 ((isFirst_iff t).mp h)
    have hpre : t.castSucc.val ≠ 0 := by rw [Fin.coe_castSucc]; exact h0
    have hprev : t.castSucc.val - 1 = t.val - 1 := by rw [Fin.coe_castSucc]
    by_cases h9 : t.val = 9
    · -- the last point
      have hl : k4_cond2 (grid4.coords t) = 1#1 := (isLast_iff t).mpr h9
      rw [show (dat V c).leavesExact 2 t = owns (c : Thread nD τ) (st4_2 t) fullShare ((dat V c).after 2 t) from by
        unfold Dat.leavesExact; rw [live_out t h9], after_out]
      iintro ⟨⟨⟨%f, Hs, %hf⟩, Hrest, Hg⟩, Ho, ⟨%d0, H0⟩, ⟨%d1, H1⟩, ⟨%d2, H2⟩⟩
      have hf' := hf hpre; rw [hprev] at hf'; subst hf'
      iapply (body_last_scratch c Set.univ _ hi hl _ _ _ _ _ _ (blk V c 0 t) (blk V c 1 t) ((dat V c).before 2 t d2) (accAfter V c (t.val - 1)) _)
      isplitl [H0]; · iexact H0
      isplitl [H1]; · iexact H1
      isplitl [H2]; · iexact H2
      isplitl [Hs]; · iexact Hs
      iintro ⟨H0, H1, H2, Hs⟩
      rw [← accAfter_pos V c t h0]
      isplitl [Hs Hrest Hg]
      · isplitl [Hs]
        · iexists _
          isplitl [Hs]; · iexact Hs
          ipureintro; intro _; rw [hsucc]
        isplitl [Hrest]; · iexact Hrest
        iexact Hg
      isplitl [Ho]; · iexact Ho
      isplitl [H0]; · iexact H0
      isplitl [H1]; · iexact H1
      iexact H2
    · -- a point in between
      have hl : ¬ k4_cond2 (grid4.coords t) = 1#1 := fun h => h9 ((isLast_iff t).mp h)
      rw [Dat.leavesExact_idle (dat V c) 2 t (idle_out t h9) (noflush_out t h9)]
      iintro ⟨⟨⟨%f, Hs, %hf⟩, Hrest, Hg⟩, Ho, ⟨%d0, H0⟩, ⟨%d1, H1⟩, ⟨%d2, H2⟩⟩
      have hf' := hf hpre; rw [hprev] at hf'; subst hf'
      iapply (body_mid_scratch c Set.univ _ hi hl _ _ _ _ _ _ (blk V c 0 t) (blk V c 1 t) ((dat V c).before 2 t d2) (accAfter V c (t.val - 1)) _)
      isplitl [H0]; · iexact H0
      isplitl [H1]; · iexact H1
      isplitl [H2]; · iexact H2
      isplitl [Hs]; · iexact Hs
      iintro ⟨H0, H1, H2, Hs⟩
      rw [← accAfter_pos V c t h0]
      isplitl [Hs Hrest Hg]
      · isplitl [Hs]
        · iexists _
          isplitl [Hs]; · iexact Hs
          ipureintro; intro _; rw [hsucc]
        isplitl [Hrest]; · iexact Hrest
        iexact Hg
      isplitl [Ho]; · iexact Ho
      isplitl [H0]; · iexact H0
      isplitl [H1]; · iexact H1
      iexists d2; iexact H2

/-- The pipeline library's body obligation for this region, at every point. -/
theorem body_obligation (c : Dev nD) : BodyObligation (dat (F := F) V c) (defs₀ (F := F)) Variants.none () Set.univ := fun t => by
  rw [bigSep_W4, bigSep_W4]
  exact body_at V c t

/-- The invariant before the first point, from the generator register and the scoped buffers no window stages. -/
theorem inv_first (c : Dev nD) :
    iprop((∃ r, prngReg c r) ∗ Pipeline.scopedRest (Ix := Unit) (Name := ℕ) (U := UR sig nD τ) (Lvl := ℕ) (Val := Elt F) spec4 c)
      ⊢ (dat V c).Φ 0 := by
  rw [scopedRest4_split, show (dat V c).Φ 0 = inv V c 0 from rfl]
  unfold inv
  iintro ⟨Hg, ⟨%f, Hs⟩, Hrest⟩
  isplitl [Hs]
  · iexists f
    isplitl [Hs]; · iexact Hs
    ipureintro; intro h; exact absurd rfl h
  isplitl [Hrest]; · iexact Hrest
  iexact Hg

/-- The invariant after the last point gives both back. -/
theorem inv_last (c : Dev nD) :
    (dat V c).Φ (Fin.last cfg4.N)
      ⊢ iprop((∃ r, prngReg c r) ∗ Pipeline.scopedRest (Ix := Unit) (Name := ℕ) (U := UR sig nD τ) (Lvl := ℕ) (Val := Elt F) spec4 c) := by
  rw [scopedRest4_split, show (dat V c).Φ (Fin.last cfg4.N) = inv V c (Fin.last cfg4.N) from rfl]
  unfold inv
  iintro ⟨⟨%f, Hs, -⟩, Hrest, Hg⟩
  isplitl [Hg]; · iexact Hg
  isplitl [Hs]; · iexists f; iexact Hs
  iexact Hrest

end Cert.KernelIdeal.Pool

end
-- ==== Proof.KI.Head.lean ====
/-
  The read-out head as a kernel region with a single grid point: the pooled graph features (256 rows of 128),
  the two weight matrices and the two biases (as one-row arrays) are each staged whole; the body computes
  relu(p · W1 + b1) · W2 + b2 and stores the 256 x 1 result whole.
  This module fixes, at arbitrary entry contents of the unscoped buffers, what every staging buffer holds
  after the body, and proves the body's triple.
-/
import proofs.«404915_j30949534335549_1_alg».proof.Proof.Gen.KernelIdeal.Launch
import proofs.«404915_j30949534335549_1_alg».proof.Proof.Gen.KernelIdeal.Skeleton
import proofs.«404915_j30949534335549_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-- Window w's one block (the whole array), read off the entry contents. -/
def blk (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- Input window 0's staging buffer holds its block whenever the body runs: fetched there, or left in
    place since the last fetch (its block index has not moved). -/
theorem found_of0 {c : Dev nD} (dat : Dat τ (Elt F) Unit ℕ (UR sig nD τ) ℕ cfg5 c)
    (hA : dat.A 0 = V c (Pipeline.arrRef spec5 0))
    (hafter : ∀ t, dat.after 0 t = blk V c 0 t) (t : Fin cfg5.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block whenever the body runs: fetched there, or left in
    place since the last fetch (its block index has not moved). -/
theorem found_of1 {c : Dev nD} (dat : Dat τ (Elt F) Unit ℕ (UR sig nD τ) ℕ cfg5 c)
    (hA : dat.A 1 = V c (Pipeline.arrRef spec5 1))
    (hafter : ∀ t, dat.after 1 t = blk V c 1 t) (t : Fin cfg5.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block whenever the body runs: fetched there, or left in
    place since the last fetch (its block index has not moved). -/
theorem found_of2 {c : Dev nD} (dat : Dat τ (Elt F) Unit ℕ (UR sig nD τ) ℕ cfg5 c)
    (hA : dat.A 2 = V c (Pipeline.arrRef spec5 2))
    (hafter : ∀ t, dat.after 2 t = blk V c 2 t) (t : Fin cfg5.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block whenever the body runs: fetched there, or left in
    place since the last fetch (its block index has not moved). -/
theorem found_of3 {c : Dev nD} (dat : Dat τ (Elt F) Unit ℕ (UR sig nD τ) ℕ cfg5 c)
    (hA : dat.A 3 = V c (Pipeline.arrRef spec5 3))
    (hafter : ∀ t, dat.after 3 t = blk V c 3 t) (t : Fin cfg5.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block whenever the body runs: fetched there, or left in
    place since the last fetch (its block index has not moved). -/
theorem found_of4 {c : Dev nD} (dat : Dat τ (Elt F) Unit ℕ (UR sig nD τ) ℕ cfg5 c)
    (hA : dat.A 4 = V c (Pipeline.arrRef spec5 4))
    (hafter : ∀ t, dat.after 4 t = blk V c 4 t) (t : Fin cfg5.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The body reads each staging buffer whole and writes the output's whole. -/
abbrev pRect : Rect S256x128 := Rect.unit (s := S256x128) ![0, 0] S256x128.size inb_S256x128_S256x128_0_0
abbrev w1Rect : Rect S128x128 := Rect.unit (s := S128x128) ![0, 0] S128x128.size inb_S128x128_S128x128_0_0
abbrev b1Rect : Rect S1x128 := Rect.unit (s := S1x128) ![0, 0] S1x128.size inb_S1x128_S1x128_0_0
abbrev w2Rect : Rect S128x1 := Rect.unit (s := S128x1) ![0, 0] S128x1.size inb_S128x1_S128x1_0_0
abbrev b2Rect : Rect S1x1 := Rect.unit (s := S1x1) ![0, 0] S1x1.size inb_S1x1_S1x1_0_0
abbrev outRect : Rect S256x1 := Rect.unit (s := S256x1) ![0, 0] S256x1.size inb_S256x1_S256x1_0_0

/-- What the body leaves in the output's staging buffer: the head's value of the five inputs, stored as one
    piece over the whole buffer. -/
def headBlock (p : Vec F S256x128 .f32) (w1 : Vec F S128x128 .f32) (b1 : Vec F S1x128 .f32)
    (w2 : Vec F S128x1 .f32) (b2 : Vec F S1x1 .f32) : Vec F S256x1 .f32 :=
  View.canon [⟨outRect, k5_pay1 (View.ld p pRect) (View.ld w1 w1Rect) (View.ld b1 b1Rect) (View.ld w2 w2Rect) (View.ld b2 b2Rect)⟩]

theorem headBlock_cover (p0 : Vec F S256x1 .f32) (y : S256x1.Idx) :
    ∃ pc ∈ ([⟨outRect, p0⟩] : List (View.Piece (Elt F) S256x1 .f32)), y ∈ pc.1.set :=
  View.cover_of_tiled [⟨outRect, p0⟩] S256x1.size (by rfl) y

set_option maxHeartbeats 1000000 in
/-- The body on whole staging memrefs: the five inputs are read and handed back unchanged; the output,
    whatever it held, ends at the head's value. -/
theorem body_triple (c : Dev nD) (E : Set ℕ) (i : grid5.Coords)
    (arg1 : Memref sig .tc .vmem S256x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x1 .f32) (harg4 : arg4.IsWhole)
    (arg5 : Memref sig .tc .vmem S1x1 .f32) (harg5 : arg5.IsWhole)
    (arg6 : Memref sig .tc .vmem S256x1 .f32) (harg6 : arg6.IsWhole)
    (p : Vec F S256x128 .f32) (w1 : Vec F S128x128 .f32) (b1 : Vec F S1x128 .f32)
    (w2 : Vec F S128x1 .f32) (b2 : Vec F S1x1 .f32) (K : PUnit → sProp 𝕄) :
    iprop(owns (c : Thread nD τ) arg1 fullShare p ∗ owns (c : Thread nD τ) arg2 fullShare w1
        ∗ owns (c : Thread nD τ) arg3 fullShare b1 ∗ owns (c : Thread nD τ) arg4 fullShare w2
        ∗ owns (c : Thread nD τ) arg5 fullShare b2
        ∗ (∃ d, owns (c : Thread nD τ) arg6 fullShare d)
        ∗ (iprop(owns (c : Thread nD τ) arg1 fullShare p ∗ owns (c : Thread nD τ) arg2 fullShare w1
            ∗ owns (c : Thread nD τ) arg3 fullShare b1 ∗ owns (c : Thread nD τ) arg4 fullShare w2
            ∗ owns (c : Thread nD τ) arg5 fullShare b2
            ∗ owns (c : Thread nD τ) arg6 fullShare (headBlock p w1 b1 w2 b2)) -∗ K ⟨⟩))
      ⊢ wp frame (wpE (defs₀ (F := F)) Variants.none c none) E
          (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (headBlock_cover _)

/-- The region's proof data on core c: its arrays as found; after the body each input's buffer still at its
    block and the output's at the head's value of the five blocks; the invariant is the scoped buffers no
    window stages and the generator register, untouched; nothing owed. -/
def dat (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => headBlock (blk V c 0 t) (blk V c 1 t) (blk V c 2 t) (blk V c 3 t) (blk V c 4 t)
  Φ _ := Pipeline.ΦA spec5 c
  q _ := fullShare
  owed _ := 0

theorem dat_A (c : Dev nD) (w : Fin cfg5.W) : (dat V c).A w = V c (Pipeline.arrRef spec5 w) := by
  dsimp only [dat]

theorem after_0 (c : Dev nD) (t : Fin cfg5.N) : (dat V c).after 0 t = blk V c 0 t := by dsimp only [dat]
theorem after_1 (c : Dev nD) (t : Fin cfg5.N) : (dat V c).after 1 t = blk V c 1 t := by dsimp only [dat]
theorem after_2 (c : Dev nD) (t : Fin cfg5.N) : (dat V c).after 2 t = blk V c 2 t := by dsimp only [dat]
theorem after_3 (c : Dev nD) (t : Fin cfg5.N) : (dat V c).after 3 t = blk V c 3 t := by dsimp only [dat]
theorem after_4 (c : Dev nD) (t : Fin cfg5.N) : (dat V c).after 4 t = blk V c 4 t := by dsimp only [dat]
theorem after_out (c : Dev nD) (t : Fin cfg5.N) :
    (dat V c).after 5 t = headBlock (blk V c 0 t) (blk V c 1 t) (blk V c 2 t) (blk V c 3 t) (blk V c 4 t) := by
  dsimp only [dat]

theorem found_0 (c : Dev nD) (t : Fin cfg5.N) (d) : (dat V c).before 0 t d = blk V c 0 t :=
  found_of0 V (dat V c) (dat_A V c 0) (after_0 V c) t d
theorem found_1 (c : Dev nD) (t : Fin cfg5.N) (d) : (dat V c).before 1 t d = blk V c 1 t :=
  found_of1 V (dat V c) (dat_A V c 1) (after_1 V c) t d
theorem found_2 (c : Dev nD) (t : Fin cfg5.N) (d) : (dat V c).before 2 t d = blk V c 2 t :=
  found_of2 V (dat V c) (dat_A V c 2) (after_2 V c) t d
theorem found_3 (c : Dev nD) (t : Fin cfg5.N) (d) : (dat V c).before 3 t d = blk V c 3 t :=
  found_of3 V (dat V c) (dat_A V c 3) (after_3 V c) t d
theorem found_4 (c : Dev nD) (t : Fin cfg5.N) (d) : (dat V c).before 4 t d = blk V c 4 t :=
  found_of4 V (dat V c) (dat_A V c 4) (after_4 V c) t d

/-- The body at the grid's point, between the invariant before it and after it. -/
theorem body_at (c : Dev nD) (t : Fin cfg5.N) :
    iprop((dat V c).Φ t.castSucc ∗ (dat V c).owesAt () t.castSucc
      ∗ (∃ d, owns (c : Thread nD τ) (st5_0 t) fullShare ((dat V c).before 0 t d))
      ∗ (∃ d, owns (c : Thread nD τ) (st5_1 t) fullShare ((dat V c).before 1 t d))
      ∗ (∃ d, owns (c : Thread nD τ) (st5_2 t) fullShare ((dat V c).before 2 t d))
      ∗ (∃ d, owns (c : Thread nD τ) (st5_3 t) fullShare ((dat V c).before 3 t d))
      ∗ (∃ d, owns (c : Thread nD τ) (st5_4 t) fullShare ((dat V c).before 4 t d))
      ∗ (∃ d, owns (c : Thread nD τ) (st5_5 t) fullShare ((dat V c).before 5 t d)))
    ⊢ wp frame (wpE (defs₀ (F := F)) Variants.none c none) Set.univ (bodyAt5 t) (fun _ =>
      iprop((dat V c).Φ t.succ ∗ (dat V c).owesAt () t.succ
        ∗ owns (c : Thread nD τ) (st5_0 t) fullShare ((dat V c).after 0 t)
        ∗ owns (c : Thread nD τ) (st5_1 t) fullShare ((dat V c).after 1 t)
        ∗ owns (c : Thread nD τ) (st5_2 t) fullShare ((dat V c).after 2 t)
        ∗ owns (c : Thread nD τ) (st5_3 t) fullShare ((dat V c).after 3 t)
        ∗ owns (c : Thread nD τ) (st5_4 t) fullShare ((dat V c).after 4 t)
        ∗ owns (c : Thread nD τ) (st5_5 t) fullShare ((dat V c).after 5 t))) := by
  unfold bodyAt5
  simp only [found_0, found_1, found_2, found_3, found_4]
  rw [show (dat V c).Φ t.succ = (dat V c).Φ t.castSucc from rfl,
    show (dat V c).owesAt () t.succ = (dat V c).owesAt () t.castSucc from rfl,
    after_0, after_1, after_2, after_3, after_4, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation for this region. -/
theorem body_obligation (c : Dev nD) : BodyObligation (dat (F := F) V c) (defs₀ (F := F)) Variants.none () Set.univ := fun t => by
  rw [bigSep_W5, bigSep_W5]
  exact body_at V c t

end Cert.KernelIdeal.Head

end
-- ==== Proof.KI.Outs.lean ====
/-
  What each kernel region leaves in the array it writes, named so that the buffers' contents between the
  items of the program are known: region k's arrays after the region are its proof data's final arrays, read
  at the contents the region was entered with.
-/
import proofs.«404915_j30949534335549_1_alg».proof.Proof.KI.Layer0
import proofs.«404915_j30949534335549_1_alg».proof.Proof.KI.Layer1
import proofs.«404915_j30949534335549_1_alg».proof.Proof.KI.Layer2
import proofs.«404915_j30949534335549_1_alg».proof.Proof.KI.Layer3
import proofs.«404915_j30949534335549_1_alg».proof.Proof.KI.Pool
import proofs.«404915_j30949534335549_1_alg».proof.Proof.KI.Head
import proofs.«404915_j30949534335549_1_alg».proof.Proof.Gen.KernelIdeal.Regions
import Idealize.ShloMosaic.Lib.Pipeline.FrameSuffix

set_option maxRecDepth 16384

noncomputable section

namespace Cert.KernelIdeal.Outs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- A core's buffer contents read at the TensorCore's references. -/
abbrev atTc (W : Dev nD → Valuation τ sig (Elt F)) : (c : Dev nD) → (b : Ref sig .tc) → Buf (Elt F) ((c : Thread nD τ).loc b) :=
  fun c b => W c b

/-- After the first projection: its arrays at what the pipeline leaves, every other buffer as entered. -/
def after0 (c : Dev nD) : Valuation τ sig (Elt F) :=
  Pipeline.withArrays spec0 c (V3 m c) fun w => (Layer0.dat (atTc (V3 m)) c).arrAt w cfg0.N
def outs0 : Outs (F := F) := fun _ r c => after0 m c r

def after1 (c : Dev nD) : Valuation τ sig (Elt F) :=
  Pipeline.withArrays spec1 c (V6 m (outs0 m) c) fun w => (Layer1.dat (atTc (V6 m (outs0 m))) c).arrAt w cfg1.N
def outs1 : Outs (F := F) := fun n r c => match n with
  | 4 => after0 m c r
  | _ => after1 m c r

def after2 (c : Dev nD) : Valuation τ sig (Elt F) :=
  Pipeline.withArrays spec2 c (V9 m (outs1 m) c) fun w => (Layer2.dat (atTc (V9 m (outs1 m))) c).arrAt w cfg2.N
def outs2 : Outs (F := F) := fun n r c => match n with
  | 4 => after0 m c r
  | 7 => after1 m c r
  | _ => after2 m c r

def after3 (c : Dev nD) : Valuation τ sig (Elt F) :=
  Pipeline.withArrays spec3 c (V12 m (outs2 m) c) fun w => (Layer3.dat (atTc (V12 m (outs2 m))) c).arrAt w cfg3.N
def outs3 : Outs (F := F) := fun n r c => match n with
  | 4 => after0 m c r
  | 7 => after1 m c r
  | 10 => after2 m c r
  | _ => after3 m c r

def after4 (c : Dev nD) : Valuation τ sig (Elt F) :=
  Pipeline.withArrays spec4 c (V16 m (outs3 m) c) fun w => (Pool.dat (atTc (V16 m (outs3 m))) c).arrAt w cfg4.N
def outs4 : Outs (F := F) := fun n r c => match n with
  | 4 => after0 m c r
  | 7 => after1 m c r
  | 10 => after2 m c r
  | 13 => after3 m c r
  | _ => after4 m c r

def after5 (c : Dev nD) : Valuation τ sig (Elt F) :=
  Pipeline.withArrays spec5 c (V18 m (outs4 m) c) fun w => (Head.dat (atTc (V18 m (outs4 m))) c).arrAt w cfg5.N

/-- What every region leaves, by the item after which it is read. -/
def outs : Outs (F := F) := fun n r c => match n with
  | 4 => after0 m c r
  | 7 => after1 m c r
  | 10 => after2 m c r
  | 13 => after3 m c r
  | 17 => after4 m c r
  | _ => after5 m c r

/-! The contents before each region do not depend on what later regions leave. -/

theorem V6_eq (c : Dev nD) : V6 m (outs m) c = V6 m (outs0 m) c := rfl
theorem V9_eq (c : Dev nD) : V9 m (outs m) c = V9 m (outs1 m) c := rfl
theorem V12_eq (c : Dev nD) : V12 m (outs m) c = V12 m (outs2 m) c := rfl
theorem V16_eq (c : Dev nD) : V16 m (outs m) c = V16 m (outs3 m) c := rfl
theorem V18_eq (c : Dev nD) : V18 m (outs m) c = V18 m (outs4 m) c := rfl

/-! What each region leaves in the array it writes. -/

theorem outs_4 (c : Dev nD) : outs m 4 main_v43 c = (Layer0.dat (atTc (V3 m)) c).arrAt 2 cfg0.N := by
  show after0 m c (Proc.devRef .tc main_v43) = _
  unfold after0
  exact Pipeline.withArrays_arr spec0 launch0.win.arr_inj c _ _ 2
theorem outs_7 (c : Dev nD) : outs m 7 main_v60 c = (Layer1.dat (atTc (V6 m (outs m))) c).arrAt 2 cfg1.N := by
  show after1 m c (Proc.devRef .tc main_v60) = _
  unfold after1
  exact Pipeline.withArrays_arr spec1 launch1.win.arr_inj c _ _ 2
theorem outs_10 (c : Dev nD) : outs m 10 main_v77 c = (Layer2.dat (atTc (V9 m (outs m))) c).arrAt 2 cfg2.N := by
  show after2 m c (Proc.devRef .tc main_v77) = _
  unfold after2
  exact Pipeline.withArrays_arr spec2 launch2.win.arr_inj c _ _ 2
theorem outs_13 (c : Dev nD) : outs m 13 main_v94 c = (Layer3.dat (atTc (V12 m (outs m))) c).arrAt 2 cfg3.N := by
  show after3 m c (Proc.devRef .tc main_v94) = _
  unfold after3
  exact Pipeline.withArrays_arr spec3 launch3.win.arr_inj c _ _ 2
theorem outs_17 (c : Dev nD) : outs m 17 main_v112 c = (Pool.dat (atTc (V16 m (outs m))) c).arrAt 2 cfg4.N := by
  show after4 m c (Proc.devRef .tc main_v112) = _
  unfold after4
  exact Pipeline.withArrays_arr spec4 launch4.win.arr_inj c _ _ 2
theorem outs_19 (c : Dev nD) : outs m 19 main_v124 c = (Head.dat (atTc (V18 m (outs m))) c).arrAt 5 cfg5.N := by
  show after5 m c (Proc.devRef .tc main_v124) = _
  unfold after5
  exact Pipeline.withArrays_arr spec5 launch5.win.arr_inj c _ _ 5

end Cert.KernelIdeal.Outs

end
-- ==== Proof.KI.RunRegs.lean ====
/-
  The six kernel regions of the program as segments of its run: each region's proof data at the contents it is
  entered with, what it leaves in its arrays, and its entry / exit protocol over the thread state that holds every
  unscoped buffer between the items.
-/
import proofs.«404915_j30949534335549_1_alg».proof.Proof.KI.Outs

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Every region's proof data, each at the contents its region is entered with. -/
def pdats : (p : Fin 6) → (c : Dev nD) → Dat τ (Elt F) Unit ℕ (UR sig nD τ) ℕ (Pipeline.pin (pcfgs (F := F)) adm p) c
  | ⟨0, _⟩ => fun c => Layer0.dat (Outs.atTc (V3 m)) c
  | ⟨1, _⟩ => fun c => Layer1.dat (Outs.atTc (V6 m (Outs.outs m))) c
  | ⟨2, _⟩ => fun c => Layer2.dat (Outs.atTc (V9 m (Outs.outs m))) c
  | ⟨3, _⟩ => fun c => Layer3.dat (Outs.atTc (V12 m (Outs.outs m))) c
  | ⟨4, _⟩ => fun c => Pool.dat (Outs.atTc (V16 m (Outs.outs m))) c
  | ⟨5, _⟩ => fun c => Head.dat (Outs.atTc (V18 m (Outs.outs m))) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers between the items: the core's generator register at some state and its dues,
    at nothing. -/
abbrev R (c : Dev nD) : sProp 𝕄 := iprop((∃ r, prngReg c r) ∗ ∃ W, owes (c : Thread nD τ) (0 : CellTallies nD τ sig Unit) W)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What each region leaves: its output array at the region's result, every other buffer as entered -/

theorem hF0 (c : Dev nD) (w : Fin cfg0.W) :
    (pdats m 0 c).arrAt w cfg0.N = V4 m (Outs.outs m) c (Pipeline.arrRef spec0 w) :=
  match w with
  | ⟨0, _⟩ => ((pdats m 0 c).arrAt_in 0 rfl _).trans ((Layer0.dat_A _ c 0).trans (Function.update_of_ne (StableHlo.devRef_ne_of_ne (by decide)) _ _).symm)
  | ⟨1, _⟩ => ((pdats m 0 c).arrAt_in 1 rfl _).trans ((Layer0.dat_A _ c 1).trans (Function.update_of_ne (StableHlo.devRef_ne_of_ne (by decide)) _ _).symm)
  | ⟨2, _⟩ => (Outs.outs_4 m c).symm.trans
      (Function.update_self (Proc.devRef (τ := τ) .tc main_v43) (Outs.outs m 4 main_v43 c) (V3 m c)).symm
theorem hrest0 (c : Dev nD) : ∀ b : Ref sig .tc, b ∉ Finset.univ.image (Pipeline.arrRef spec0) →
    V4 m (Outs.outs m) c b = V3 m c b := fun b hb =>
  Function.update_of_ne (StableHlo.devRef_ne_of_ne fun e => hb (Finset.mem_image.mpr ⟨2, Finset.mem_univ _, e.symm⟩)) _ _

theorem hF1 (c : Dev nD) (w : Fin cfg1.W) :
    (pdats m 1 c).arrAt w cfg1.N = V7 m (Outs.outs m) c (Pipeline.arrRef spec1 w) :=
  match w with
  | ⟨0, _⟩ => ((pdats m 1 c).arrAt_in 0 rfl _).trans ((Layer1.dat_A _ c 0).trans (Function.update_of_ne (StableHlo.devRef_ne_of_ne (by decide)) _ _).symm)
  | ⟨1, _⟩ => ((pdats m 1 c).arrAt_in 1 rfl _).trans ((Layer1.dat_A _ c 1).trans (Function.update_of_ne (StableHlo.devRef_ne_of_ne (by decide)) _ _).symm)
  | ⟨2, _⟩ => (Outs.outs_7 m c).symm.trans
      (Function.update_self (Proc.devRef (τ := τ) .tc main_v60) (Outs.outs m 7 main_v60 c) (V6 m (Outs.outs m) c)).symm
theorem hrest1 (c : Dev nD) : ∀ b : Ref sig .tc, b ∉ Finset.univ.image (Pipeline.arrRef spec1) →
    V7 m (Outs.outs m) c b = V6 m (Outs.outs m) c b := fun b hb =>
  Function.update_of_ne (StableHlo.devRef_ne_of_ne fun e => hb (Finset.mem_image.mpr ⟨2, Finset.mem_univ _, e.symm⟩)) _ _

theorem hF2 (c : Dev nD) (w : Fin cfg2.W) :
    (pdats m 2 c).arrAt w cfg2.N = V10 m (Outs.outs m) c (Pipeline.arrRef spec2 w) :=
  match w with
  | ⟨0, _⟩ => ((pdats m 2 c).arrAt_in 0 rfl _).trans ((Layer2.dat_A _ c 0).trans (Function.update_of_ne (StableHlo.devRef_ne_of_ne (by decide)) _ _).symm)
  | ⟨1, _⟩ => ((pdats m 2 c).arrAt_in 1 rfl _).trans ((Layer2.dat_A _ c 1).trans (Function.update_of_ne (StableHlo.devRef_ne_of_ne (by decide)) _ _).symm)
  | ⟨2, _⟩ => (Outs.outs_10 m c).symm.trans
      (Function.update_self (Proc.devRef (τ := τ) .tc main_v77) (Outs.outs m 10 main_v77 c) (V9 m (Outs.outs m) c)).symm
theorem hrest2 (c : Dev nD) : ∀ b : Ref sig .tc, b ∉ Finset.univ.image (Pipeline.arrRef spec2) →
    V10 m (Outs.outs m) c b = V9 m (Outs.outs m) c b := fun b hb =>
  Function.update_of_ne (StableHlo.devRef_ne_of_ne fun e => hb (Finset.mem_image.mpr ⟨2, Finset.mem_univ _, e.symm⟩)) _ _

theorem hF3 (c : Dev nD) (w : Fin cfg3.W) :
    (pdats m 3 c).arrAt w cfg3.N = V13 m (Outs.outs m) c (Pipeline.arrRef spec3 w) :=
  match w with
  | ⟨0, _⟩ => ((pdats m 3 c).arrAt_in 0 rfl _).trans ((Layer3.dat_A _ c 0).trans (Function.update_of_ne (StableHlo.devRef_ne_of_ne (by decide)) _ _).symm)
  | ⟨1, _⟩ => ((pdats m 3 c).arrAt_in 1 rfl _).trans ((Layer3.dat_A _ c 1).trans (Function.update_of_ne (StableHlo.devRef_ne_of_ne (by decide)) _ _).symm)
  | ⟨2, _⟩ => (Outs.outs_13 m c).symm.trans
      (Function.update_self (Proc.devRef (τ := τ) .tc main_v94) (Outs.outs m 13 main_v94 c) (V12 m (Outs.outs m) c)).symm
theorem hrest3 (c : Dev nD) : ∀ b : Ref sig .tc, b ∉ Finset.univ.image (Pipeline.arrRef spec3) →
    V13 m (Outs.outs m) c b = V12 m (Outs.outs m) c b := fun b hb =>
  Function.update_of_ne (StableHlo.devRef_ne_of_ne fun e => hb (Finset.mem_image.mpr ⟨2, Finset.mem_univ _, e.symm⟩)) _ _

theorem hF4 (c : Dev nD) (w : Fin cfg4.W) :
    (pdats m 4 c).arrAt w cfg4.N = V17 m (Outs.outs m) c (Pipeline.arrRef spec4 w) :=
  match w with
  | ⟨0, _⟩ => ((pdats m 4 c).arrAt_in 0 rfl _).trans ((Pool.dat_A _ c 0).trans (Function.update_of_ne (StableHlo.devRef_ne_of_ne (by decide)) _ _).symm)
  | ⟨1, _⟩ => ((pdats m 4 c).arrAt_in 1 rfl _).trans ((Pool.dat_A _ c 1).trans (Function.update_of_ne (StableHlo.devRef_ne_of_ne (by decide)) _ _).symm)
  | ⟨2, _⟩ => (Outs.outs_17 m c).symm.trans
      (Function.update_self (Proc.devRef (τ := τ) .tc main_v112) (Outs.outs m 17 main_v112 c) (V16 m (Outs.outs m) c)).symm
theorem hrest4 (c : Dev nD) : ∀ b : Ref sig .tc, b ∉ Finset.univ.image (Pipeline.arrRef spec4) →
    V17 m (Outs.outs m) c b = V16 m (Outs.outs m) c b := fun b hb =>
  Function.update_of_ne (StableHlo.devRef_ne_of_ne fun e => hb (Finset.mem_image.mpr ⟨2, Finset.mem_univ _, e.symm⟩)) _ _

theorem hF5 (c : Dev nD) (w : Fin cfg5.W) :
    (pdats m 5 c).arrAt w cfg5.N = V19 m (Outs.outs m) c (Pipeline.arrRef spec5 w) :=
  match w with
  | ⟨0, _⟩ => ((pdats m 5 c).arrAt_in 0 rfl _).trans ((Head.dat_A _ c 0).trans (Function.update_of_ne (StableHlo.devRef_ne_of_ne (by decide)) _ _).symm)
  | ⟨1, _⟩ => ((pdats m 5 c).arrAt_in 1 rfl _).trans ((Head.dat_A _ c 1).trans (Function.update_of_ne (StableHlo.devRef_ne_of_ne (by decide)) _ _).symm)
  | ⟨2, _⟩ => ((pdats m 5 c).arrAt_in 2 rfl _).trans ((Head.dat_A _ c 2).trans (Function.update_of_ne (StableHlo.devRef_ne_of_ne (by decide)) _ _).symm)
  | ⟨3, _⟩ => ((pdats m 5 c).arrAt_in 3 rfl _).trans ((Head.dat_A _ c 3).trans (Function.update_of_ne (StableHlo.devRef_ne_of_ne (by decide)) _ _).symm)
  | ⟨4, _⟩ => ((pdats m 5 c).arrAt_in 4 rfl _).trans ((Head.dat_A _ c 4).trans (Function.update_of_ne (StableHlo.devRef_ne_of_ne (by decide)) _ _).symm)
  | ⟨5, _⟩ => (Outs.outs_19 m c).symm.trans
      (Function.update_self (Proc.devRef (τ := τ) .tc main_v124) (Outs.outs m 19 main_v124 c) (V18 m (Outs.outs m) c)).symm
theorem hrest5 (c : Dev nD) : ∀ b : Ref sig .tc, b ∉ Finset.univ.image (Pipeline.arrRef spec5) →
    V19 m (Outs.outs m) c b = V18 m (Outs.outs m) c b := fun b hb =>
  Function.update_of_ne (StableHlo.devRef_ne_of_ne fun e => hb (Finset.mem_image.mpr ⟨5, Finset.mem_univ _, e.symm⟩)) _ _

/-! ## The regions as segments -/

set_option backward.isDefEq.respectTransparency.types false in
/-- The first layer's projection over the thread state: entered from every unscoped buffer at `V3`, left at `V4`. Its
    arrays are split out of the unscoped buffers and put back at the exit contents; the generator register goes
    into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (Outs.atTc (V3 m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (Outs.outs m) c) ∗ R c)
  X c := iprop(∃ r, prngReg c r)
  Y c := iprop(∃ r, prngReg c r)
  Z c := Pipeline.unscopedRest (Ix := Unit) (Name := ℕ) (U := UR sig nD τ) (Lvl := ℕ) spec0 c (Outs.atTc (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Outs.atTc (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Outs.atTc (V3 m) c) (Outs.atTc (V4 m (Outs.outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's projection over the thread state: entered from every unscoped buffer at `V6`, left at `V7`. Its
    arrays are split out of the unscoped buffers and put back at the exit contents; the generator register goes
    into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (Outs.atTc (V6 m (Outs.outs m))) c).loose
  hwaits := Pipeline.hwaits_of_owed_zero _ _ _ _ L lv 1 fun _ _ => rfl
  pre c := iprop(StableHlo.held (c : Thread nD τ) (Pipeline.ucRefs τ sig) (V6 m (Outs.outs m) c) ∗ R c)
  post c := iprop(StableHlo.held (c : Thread nD τ) (Pipeline.ucRefs τ sig) (V7 m (Outs.outs m) c) ∗ R c)
  X c := iprop(∃ r, prngReg c r)
  Y c := iprop(∃ r, prngReg c r)
  Z c := Pipeline.unscopedRest (Ix := Unit) (Name := ℕ) (U := UR sig nD τ) (Lvl := ℕ) spec1 c (Outs.atTc (V6 m (Outs.outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Outs.atTc (V6 m (Outs.outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Outs.atTc (V6 m (Outs.outs m)) c) (Outs.atTc (V7 m (Outs.outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third layer's projection over the thread state: entered from every unscoped buffer at `V9`, left at `V10`. Its
    arrays are split out of the unscoped buffers and put back at the exit contents; the generator register goes
    into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (Outs.atTc (V9 m (Outs.outs m))) c).loose
  hwaits := Pipeline.hwaits_of_owed_zero _ _ _ _ L lv 2 fun _ _ => rfl
  pre c := iprop(StableHlo.held (c : Thread nD τ) (Pipeline.ucRefs τ sig) (V9 m (Outs.outs m) c) ∗ R c)
  post c := iprop(StableHlo.held (c : Thread nD τ) (Pipeline.ucRefs τ sig) (V10 m (Outs.outs m) c) ∗ R c)
  X c := iprop(∃ r, prngReg c r)
  Y c := iprop(∃ r, prngReg c r)
  Z c := Pipeline.unscopedRest (Ix := Unit) (Name := ℕ) (U := UR sig nD τ) (Lvl := ℕ) spec2 c (Outs.atTc (V9 m (Outs.outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Outs.atTc (V9 m (Outs.outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Outs.atTc (V9 m (Outs.outs m)) c) (Outs.atTc (V10 m (Outs.outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fourth layer's projection over the thread state: entered from every unscoped buffer at `V12`, left at `V13`. Its
    arrays are split out of the unscoped buffers and put back at the exit contents; the generator register goes
    into the invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Layer3.body_obligation (Outs.atTc (V12 m (Outs.outs m))) c).loose
  hwaits := Pipeline.hwaits_of_owed_zero _ _ _ _ L lv 3 fun _ _ => rfl
  pre c := iprop(StableHlo.held (c : Thread nD τ) (Pipeline.ucRefs τ sig) (V12 m (Outs.outs m) c) ∗ R c)
  post c := iprop(StableHlo.held (c : Thread nD τ) (Pipeline.ucRefs τ sig) (V13 m (Outs.outs m) c) ∗ R c)
  X c := iprop(∃ r, prngReg c r)
  Y c := iprop(∃ r, prngReg c r)
  Z c := Pipeline.unscopedRest (Ix := Unit) (Name := ℕ) (U := UR sig nD τ) (Lvl := ℕ) spec3 c (Outs.atTc (V12 m (Outs.outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Outs.atTc (V12 m (Outs.outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Outs.atTc (V12 m (Outs.outs m)) c) (Outs.atTc (V13 m (Outs.outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooling of node features by graph over the thread state: entered from every unscoped buffer at `V16`, left at `V17`. Its
    arrays are split out of the unscoped buffers and put back at the exit contents; the generator register and the scoped buffers no window stages go
    into the accumulator's invariant at the first point and come out of it at the last; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (Pool.body_obligation (Outs.atTc (V16 m (Outs.outs m))) c).loose
  hwaits := Pipeline.hwaits_of_owed_zero _ _ _ _ L lv 4 fun _ _ => rfl
  pre c := iprop(StableHlo.held (c : Thread nD τ) (Pipeline.ucRefs τ sig) (V16 m (Outs.outs m) c) ∗ R c)
  post c := iprop(StableHlo.held (c : Thread nD τ) (Pipeline.ucRefs τ sig) (V17 m (Outs.outs m) c) ∗ R c)
  X c := iprop(∃ r, prngReg c r)
  Y c := iprop(∃ r, prngReg c r)
  Z c := Pipeline.unscopedRest (Ix := Unit) (Name := ℕ) (U := UR sig nD τ) (Lvl := ℕ) spec4 c (Outs.atTc (V16 m (Outs.outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (Outs.atTc (V16 m (Outs.outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Pool.inv_first (Outs.atTc (V16 m (Outs.outs m))) c)
    iintro ⟨Hp, -, Hr⟩
    isplitl [Hp]; · iexact Hp
    iexact Hr
  hout c := by
    rw [Pipeline.ownSems0_none]
    refine (Pool.inv_last (Outs.atTc (V16 m (Outs.outs m))) c).trans ?_
    iintro ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Outs.atTc (V16 m (Outs.outs m)) c) (Outs.atTc (V17 m (Outs.outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The two-layer head on the pooled features over the thread state: entered from every unscoped buffer at `V18`, left at `V19`. Its
    arrays are split out of the unscoped buffers and put back at the exit contents; the generator register goes
    into the invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (Head.body_obligation (Outs.atTc (V18 m (Outs.outs m))) c).loose
  hwaits := Pipeline.hwaits_of_owed_zero _ _ _ _ L lv 5 fun _ _ => rfl
  pre c := iprop(StableHlo.held (c : Thread nD τ) (Pipeline.ucRefs τ sig) (V18 m (Outs.outs m) c) ∗ R c)
  post c := iprop(StableHlo.held (c : Thread nD τ) (Pipeline.ucRefs τ sig) (V19 m (Outs.outs m) c) ∗ R c)
  X c := iprop(∃ r, prngReg c r)
  Y c := iprop(∃ r, prngReg c r)
  Z c := Pipeline.unscopedRest (Ix := Unit) (Name := ℕ) (U := UR sig nD τ) (Lvl := ℕ) spec5 c (Outs.atTc (V18 m (Outs.outs m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Outs.atTc (V18 m (Outs.outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Outs.atTc (V18 m (Outs.outs m)) c) (Outs.atTc (V19 m (Outs.outs m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.RunCond.lean ====
/-
  The program's run from one segment record per kernel region: @main is the chain of its host stretches and
  region calls; given, per region, a segment record entered from the buffers' contents before it and left at
  the contents after it, every weakly fair execution terminates and every unscoped buffer ends at the last
  contents.
-/
import proofs.«404915_j30949534335549_1_alg».proof.Proof.Gen.KernelIdeal.Regions

set_option maxRecDepth 16384

noncomputable section

namespace Cert.KernelIdeal.RunCond

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Dat Seg HostSeg RegionSeg)

variable {F : FTy → Type} [FloatOps F]

variable (m : (ℓ : Loc nD τ sig) → Buf (Elt F) ℓ)

set_option backward.isDefEq.respectTransparency.types false in
/-- For any user algebra, level assignment, launch dues and ghost resources, any rest states the launch makes
    on every core at once and that end owing nothing, any contents the regions leave and any proof data: given
    per region a segment record entered from the thread state before it and left at the one after it, the
    program terminates from memory m with zero counters and every final memory holds each unscoped buffer at
    the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V12 m outs c) ∗ E 3 c) ⊢ R3.pre c)
    (hpost3 : ∀ c : Dev nD, R3.post c ⊢ iprop(StableHlo.held (c : Thread nD τ) (Pipeline.ucRefs τ sig) (V13 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V16 m outs c) ∗ E 4 c) ⊢ R4.pre c)
    (hpost4 : ∀ c : Dev nD, R4.post c ⊢ iprop(StableHlo.held (c : Thread nD τ) (Pipeline.ucRefs τ sig) (V17 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V18 m outs c) ∗ E 5 c) ⊢ R5.pre c)
    (hpost5 : ∀ c : Dev nD, R5.post c ⊢ iprop(StableHlo.held (c : Thread nD τ) (Pipeline.ucRefs τ sig) (V19 m outs c) ∗ E 6 c)) :
    θ_run defs (onTc (τ := τ) (main (F := F))) ⟨m, fun _ => 0, ρ⟩ (fun r => ∀ c : Dev nD,
      ∀ b ∈ Pipeline.ucRefs τ sig, r.2.mem (((c : Thread nD τ)).1, b) = V19 m outs c b) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, .rfl, .rfl, hpre0 c, hpost0 c, .rfl, hpre1 c, hpost1 c, .rfl, hpre2 c, hpost2 c, .rfl, hpre3 c, hpost3 c, .rfl, .rfl, hpre4 c, hpost4 c, hpre5 c, (hpost5 c).trans (sep_mono .rfl (hE6 c))⟩)
    (hinit := ?_) (QY := fun c s => ∀ b ∈ Pipeline.ucRefs τ sig, s.mem (((c : Thread nD τ)).1, b) = V19 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V19 m outs c) s')
    isplitl [Hh] <;> iassumption

end Cert.KernelIdeal.RunCond

end
-- ==== Proof.KI.Run.lean ====
/-
  The kernel program's run: @main is host stretches and six kernel regions; with every region's proof data,
  body obligation and entry / exit protocol given, the pipeline library's launch over the list of segments
  yields that every weakly fair execution terminates with every unscoped buffer at the contents the items
  leave one after the other.
-/
import proofs.«404915_j30949534335549_1_alg».proof.Proof.KI.RunRegs
import proofs.«404915_j30949534335549_1_alg».proof.Proof.KI.RunCond

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option backward.isDefEq.respectTransparency.types false in
/-- Every weakly fair execution of the program terminates, nothing faulting, and in every final memory each
    unscoped buffer of each core holds what the last valuation says, the regions' results being those of their
    proof data: the launch over the six regions' records, the rest state between items being the generator
    register and the core's dues at nothing. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V19 m (Outs.outs m) c b) :=
  RunCond.run_cond m (Ix := Unit) (U := UR sig nD τ) (Lvl := ℕ) emb₁ () 𝒱₀ L lv (fun _ _ => rfl) ρ (Outs.outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE6 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)

/-- The program runs to the end, nothing faulting; the result buffer ends at what the last region leaves
    and every argument as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v124) = V19 m (Outs.outs m) c main_v124
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).monotone (fun r h c =>
    ⟨h c _ (mem_uc main_v124 (by decide)),
      (h c _ (mem_uc main_arg0 (by decide))).trans (V19_main_arg0 m (Outs.outs m) c),
      (h c _ (mem_uc main_arg1 (by decide))).trans (V19_main_arg1 m (Outs.outs m) c),
      (h c _ (mem_uc main_arg2 (by decide))).trans (V19_main_arg2 m (Outs.outs m) c),
      (h c _ (mem_uc main_arg3 (by decide))).trans (V19_main_arg3 m (Outs.outs m) c),
      (h c _ (mem_uc main_arg4 (by decide))).trans (V19_main_arg4 m (Outs.outs m) c),
      (h c _ (mem_uc main_arg5 (by decide))).trans (V19_main_arg5 m (Outs.outs m) c),
      (h c _ (mem_uc main_arg6 (by decide))).trans (V19_main_arg6 m (Outs.outs m) c),
      (h c _ (mem_uc main_arg7 (by decide))).trans (V19_main_arg7 m (Outs.outs m) c),
      (h c _ (mem_uc main_arg8 (by decide))).trans (V19_main_arg8 m (Outs.outs m) c),
      (h c _ (mem_uc main_arg9 (by decide))).trans (V19_main_arg9 m (Outs.outs m) c),
      (h c _ (mem_uc main_arg10 (by decide))).trans (V19_main_arg10 m (Outs.outs m) c)⟩)
    (run_all m ρ)

end Cert.KernelIdeal.Run

end
-- ==== Proof.Spec.lean ====
/-
  The graph network as pure functions of its inputs, spelt with the host operations of the reference program.

  Every edge (s, d) of the graph, and a self-loop at every node, carries the weight
  dinv[s] * dinv[d], where dinv[n] = deg[n]^(-1/2) (0 where the degree is not positive) and deg[n] counts the
  edges and the loop that end at n.  One layer sends a node's projected features hw along every edge, scaled
  by the edge's weight, adds what arrives at each node, adds the bias and clips at zero.  After four layers
  the node features are summed per graph, divided by the graph's node count (at least one), and passed
  through a two-layer read-out.

  Node indices that are negative are shifted by the node count before a read, as jax's indexing does; an
  index outside the array contributes nothing to a sum over destinations.
-/
import proofs.«404915_j30949534335549_1_alg».proof.ReferenceIdeal
import Idealize.ShloMosaic.PureOps.Ideal

noncomputable section

namespace Cert.Spec

open Idealize.ShloMosaic Cert.ReferenceIdeal
open Cert.ReferenceIdeal.Facts₀ Cert.ReferenceIdeal.Facts

variable {F : FTy → Type} [FloatOps F] [Cert.ReferenceIdeal.Facts]

abbrev Edges := (⟨S2x800000, .i32⟩ : BufTy).Contents (Elt F)
abbrev Ends := (⟨S850000, .i32⟩ : BufTy).Contents (Elt F)
abbrev Nodes := (⟨S50000x128, .f32⟩ : BufTy).Contents (Elt F)
abbrev Mat := (⟨S128x128, .f32⟩ : BufTy).Contents (Elt F)
abbrev Row := (⟨S128, .f32⟩ : BufTy).Contents (Elt F)
abbrev Graphs := (⟨S256x128, .f32⟩ : BufTy).Contents (Elt F)

/-- The source node of every edge, then every node once (the self-loops). -/
def src (ei : Edges (F := F)) : Ends (F := F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destination node of every edge, then every node once. -/
def dst (ei : Edges (F := F)) : Ends (F := F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A list of node indices made ready for a read: a negative index is shifted up by the node count. -/
def wrap (v : Ends (F := F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- A list of node indices as destinations of a sum (used as they are). -/
def col (v : Ends (F := F)) : (⟨S850000x1, .i32⟩ : BufTy).Contents (Elt F) :=
  broadcastInDim S850000x1 ![0] bcast_S850000_S850000x1_0 v

/-- How many edges (loops included) end at each node. -/
def deg (ei : Edges (F := F)) : (⟨S50000, .f32⟩ : BufTy).Contents (Elt F) :=
  Host.scatterAdd scatter_S50000_S850000x1_S850000_n_0_0_1 (broadcastInDim S50000 ![] bcast_S_S50000 (constant S_ .f32 0x00000000#32)) (col (dst ei)) (broadcastInDim S850000 ![] bcast_S_S850000 (constant S_ .f32 0x3F800000#32))

/-- deg^(-1/2) where the degree is positive, else 0. -/
def dinv (ei : Edges (F := F)) : (⟨S50000, .f32⟩ : BufTy).Contents (Elt F) :=
  select (cmpf .ogt (deg ei) (broadcastInDim S50000 ![] bcast_S_S50000 (constant S_ .f32 0x00000000#32))) (Host.rsqrt (deg ei)) (broadcastInDim S50000 ![] bcast_S_S50000 (id (constant S_ .f32 0x00000000#32)))

/-- The weight of every edge: dinv at its source times dinv at its destination. -/
def nrm (ei : Edges (F := F)) : (⟨S850000, .f32⟩ : BufTy).Contents (Elt F) :=
  mulf (Host.gather gather_S50000_S850000x1_S850000_n_0_n_n_0_1_1 (dinv ei) (wrap (src ei))) (Host.gather gather_S50000_S850000x1_S850000_n_0_n_n_0_1_1 (dinv ei) (wrap (dst ei)))

/-- One layer after its projection: the projected features hw sent along every edge with the edge's weight w,
    summed at the destinations, the bias added, clipped at zero. -/
def spread (hw : Nodes (F := F)) (w : (⟨S850000, .f32⟩ : BufTy).Contents (Elt F)) (b : Row (F := F)) (ei : Edges (F := F)) : Nodes (F := F) :=
  maximumf (addf (Host.scatterAdd scatter_S50000x128_S850000x1_S850000x128_1_0_0_1 (broadcastInDim S50000x128 ![] bcast_S_S50000x128 (constant S_ .f32 0x00000000#32)) (col (dst ei)) (mulf (Host.gather gather_S50000x128_S850000x1_S850000x128_1_0_n_n_0_1_1128 hw (wrap (src ei))) (broadcastInDim S850000x128 ![0, 1] bcast_S850000x1_S850000x128_0_1 (broadcastInDim S850000x1 ![0] bcast_S850000_S850000x1_0 w)))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The projection of the node features by a weight matrix. -/
def proj (h : Nodes (F := F)) (W : Mat (F := F)) : Nodes (F := F) :=
  Host.dotGeneral dot_S50000x128_S128x128_S50000x128_1_0_0_1_n_n none h W

/-- One whole layer. -/
def layer (h : Nodes (F := F)) (W : Mat (F := F)) (b : Row (F := F)) (ei : Edges (F := F)) : Nodes (F := F) :=
  spread (proj h W) (nrm ei) b ei

/-- The k-th of the three stacked weight matrices, and of the three stacked biases. -/
def W0 (Ws : (⟨S3x128x128, .f32⟩ : BufTy).Contents (Elt F)) : Mat (F := F) :=
  shapeCast _ (extractStridedSlice S1x128x128 ![0, 0, 0] Ws slices_S3x128x128_S1x128x128_0_0_0) shapeCasts_S1x128x128_S128x128
def W1 (Ws : (⟨S3x128x128, .f32⟩ : BufTy).Contents (Elt F)) : Mat (F := F) :=
  shapeCast _ (extractStridedSlice S1x128x128 ![1, 0, 0] Ws slices_S3x128x128_S1x128x128_1_0_0) shapeCasts_S1x128x128_S128x128
def W2 (Ws : (⟨S3x128x128, .f32⟩ : BufTy).Contents (Elt F)) : Mat (F := F) :=
  shapeCast _ (extractStridedSlice S1x128x128 ![2, 0, 0] Ws slices_S3x128x128_S1x128x128_2_0_0) shapeCasts_S1x128x128_S128x128
def b0 (bs : (⟨S3x128, .f32⟩ : BufTy).Contents (Elt F)) : Row (F := F) :=
  shapeCast _ (extractStridedSlice S1x128 ![0, 0] bs slices_S3x128_S1x128_0_0) shapeCasts_S1x128_S128
def b1 (bs : (⟨S3x128, .f32⟩ : BufTy).Contents (Elt F)) : Row (F := F) :=
  shapeCast _ (extractStridedSlice S1x128 ![1, 0] bs slices_S3x128_S1x128_1_0) shapeCasts_S1x128_S128
def b2 (bs : (⟨S3x128, .f32⟩ : BufTy).Contents (Elt F)) : Row (F := F) :=
  shapeCast _ (extractStridedSlice S1x128 ![2, 0] bs slices_S3x128_S1x128_2_0) shapeCasts_S1x128_S128

/-- The node features summed per graph: node n goes to graph batch[n] (to none if that is no graph). -/
def sumsAt (h : Nodes (F := F)) (ids : (⟨S50000x1, .i32⟩ : BufTy).Contents (Elt F)) : Graphs (F := F) :=
  Host.scatterAdd scatter_S256x128_S50000x1_S50000x128_1_0_0_1 (broadcastInDim S256x128 ![] bcast_S_S256x128 (constant S_ .f32 0x00000000#32)) ids h

/-- The same, from the flat list of graph ids. -/
def sums (h : Nodes (F := F)) (batch : (⟨S50000, .i32⟩ : BufTy).Contents (Elt F)) : Graphs (F := F) :=
  sumsAt h (broadcastInDim S50000x1 ![0] bcast_S50000_S50000x1_0 batch)

/-- The node count of every graph, at least one, repeated along the feature axis. -/
def counts (batch : (⟨S50000, .i32⟩ : BufTy).Contents (Elt F)) : Graphs (F := F) :=
  broadcastInDim S256x128 ![0, 1] bcast_S256x1_S256x128_0_1 (broadcastInDim S256x1 ![0] bcast_S256_S256x1_0 (maximumf (Host.scatterAdd scatter_S256_S50000x1_S50000_n_0_0_1 (broadcastInDim S256 ![] bcast_S_S256 (constant S_ .f32 0x00000000#32)) (broadcastInDim S50000x1 ![0] bcast_S50000_S50000x1_0 batch) (broadcastInDim S50000 ![] bcast_S_S50000 (constant S_ .f32 0x3F800000#32))) (broadcastInDim S256 ![] bcast_S_S256 (constant S_ .f32 0x3F800000#32))))

/-- The per-graph mean from the per-graph sums. -/
def mean (s : Graphs (F := F)) (batch : (⟨S50000, .i32⟩ : BufTy).Contents (Elt F)) : Graphs (F := F) :=
  Host.divf s (counts batch)

/-- The read-out with the two biases given as one-row arrays: relu(p · lw1 + lb1) · lw2 + lb2. -/
def readoutRows (p : Graphs (F := F)) (lw1 : Mat (F := F)) (lb1r : (⟨S1x128, .f32⟩ : BufTy).Contents (Elt F)) (lw2 : (⟨S128x1, .f32⟩ : BufTy).Contents (Elt F)) (lb2r : (⟨S1x1, .f32⟩ : BufTy).Contents (Elt F)) : (⟨S256x1, .f32⟩ : BufTy).Contents (Elt F) :=
  addf (Host.dotGeneral dot_S256x128_S128x1_S256x1_1_0_0_1_n_n none (maximumf (addf (Host.dotGeneral dot_S256x128_S128x128_S256x128_1_0_0_1_n_n none p lw1) (broadcastInDim S256x128 ![0, 1] bcast_S1x128_S256x128_0_1 lb1r)) (broadcastInDim S256x128 ![] bcast_S_S256x128 (constant S_ .f32 0x00000000#32))) lw2) (broadcastInDim S256x1 ![0, 1] bcast_S1x1_S256x1_0_1 lb2r)

/-- The read-out from the flat biases. -/
def readout (p : Graphs (F := F)) (lw1 : Mat (F := F)) (lb1 : Row (F := F)) (lw2 : (⟨S128x1, .f32⟩ : BufTy).Contents (Elt F)) (lb2 : (⟨S1, .f32⟩ : BufTy).Contents (Elt F)) : (⟨S256x1, .f32⟩ : BufTy).Contents (Elt F) :=
  readoutRows p lw1 (broadcastInDim S1x128 ![1] bcast_S128_S1x128_1 lb1) lw2 (broadcastInDim S1x1 ![1] bcast_S1_S1x1_1 lb2)

/-- The whole network. -/
def model (x : Nodes (F := F)) (ei : Edges (F := F)) (batch : (⟨S50000, .i32⟩ : BufTy).Contents (Elt F)) (Wa : Mat (F := F)) (ba : Row (F := F))
    (Ws : (⟨S3x128x128, .f32⟩ : BufTy).Contents (Elt F)) (bs : (⟨S3x128, .f32⟩ : BufTy).Contents (Elt F))
    (lw1 : Mat (F := F)) (lb1 : Row (F := F)) (lw2 : (⟨S128x1, .f32⟩ : BufTy).Contents (Elt F)) (lb2 : (⟨S1, .f32⟩ : BufTy).Contents (Elt F)) :
    (⟨S256x1, .f32⟩ : BufTy).Contents (Elt F) :=
  readout (mean (sums (layer (layer (layer (layer x Wa ba ei) (W0 Ws) (b0 bs) ei) (W1 Ws) (b1 bs) ei) (W2 Ws) (b2 bs) ei) batch) batch) lw1 lb1 lw2 lb2

end Cert.Spec

end
-- ==== Proof.KI.KernelValNorm.lean ====
/-
  The kernel program's opening host stretches over the extended reals, read buffer by buffer: the edge sources and
  destinations with the self-loops appended, the degrees, their inverse square roots, the weight of every edge
  (the product of the two at its ends) as a one-column array, and the three later layers' weight matrices and
  biases taken out of their stacks. Each is the specification's term of the arguments as launched.

  The specification's layer is also split here into the sum over the edges plus the bias, and the clip at zero,
  which are the two host stretches that follow each projection.
-/
import proofs.«404915_j30949534335549_1_alg».proof.Proof.Gen.KernelIdeal.Regions
import proofs.«404915_j30949534335549_1_alg».proof.Proof.Spec
import proofs.«404915_j30949534335549_1_alg».proof.Proof.Gen.ReferenceIdeal
import Idealize.ShloMosaic.Lib.StableHlo.Run

set_option maxRecDepth 16384

noncomputable section

namespace Cert.SpecParts

open Idealize.ShloMosaic Cert.ReferenceIdeal
open Cert.ReferenceIdeal.Facts₀ Cert.ReferenceIdeal.Facts

/-- The zero scalar, the zero vector over the nodes and the zero array over the node features. -/
abbrev zero0 : (⟨S_, .f32⟩ : BufTy).Contents (Elt Ideal) := constant (F := Ideal) S_ .f32 0x00000000#32
abbrev zeroN : (⟨S50000, .f32⟩ : BufTy).Contents (Elt Ideal) := broadcastInDim S50000 ![] bcast_S_S50000 zero0
abbrev zeroNF : Cert.Spec.Nodes (F := Ideal) := broadcastInDim S50000x128 ![] bcast_S_S50000x128 zero0

/-- The edge weights as a one-column array, the form in which every layer reads them. -/
def nrmCol (ei : Cert.Spec.Edges (F := Ideal)) : (⟨S850000x1, .f32⟩ : BufTy).Contents (Elt Ideal) :=
  broadcastInDim S850000x1 ![0] bcast_S850000_S850000x1_0 (Cert.Spec.nrm (F := Ideal) ei)

/-- One layer before the clip at zero: the weighted features summed at the destinations, plus the bias. -/
def preact (hw : Cert.Spec.Nodes (F := Ideal)) (b : Cert.Spec.Row (F := Ideal)) (ei : Cert.Spec.Edges (F := Ideal)) :
    Cert.Spec.Nodes (F := Ideal) :=
  addf (F := Ideal) (φ := .f32) (Host.scatterAdd (F := Ideal) (φ := .f32) scatter_S50000x128_S850000x1_S850000x128_1_0_0_1 zeroNF (Cert.Spec.col (F := Ideal) (Cert.Spec.dst (F := Ideal) ei))
      (mulf (F := Ideal) (φ := .f32) (Host.gather gather_S50000x128_S850000x1_S850000x128_1_0_n_n_0_1_1128 hw (Cert.Spec.wrap (F := Ideal) (Cert.Spec.src (F := Ideal) ei)))
        (broadcastInDim S850000x128 ![0, 1] bcast_S850000x1_S850000x128_0_1 (nrmCol ei))))
    (broadcastInDim S50000x128 ![0, 1] bcast_S1x128_S50000x128_0_1 (broadcastInDim S1x128 ![1] bcast_S128_S1x128_1 b))

/-- A layer after its projection is the clip at zero of that sum. -/
theorem spread_eq (hw : Cert.Spec.Nodes (F := Ideal)) (b : Cert.Spec.Row (F := Ideal)) (ei : Cert.Spec.Edges (F := Ideal)) :
    Cert.Spec.spread (F := Ideal) hw (Cert.Spec.nrm (F := Ideal) ei) b ei = maximumf (F := Ideal) (φ := .f32) (preact hw b ei) zeroNF := rfl

end Cert.SpecParts

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.SpecParts

variable (W : Valuation τ sig (Elt Ideal))

/-! ### The first stretch: the edge ends and the degrees -/

theorem s0_v5 : StableHlo.after hostOps0 W (Proc.devRef .tc main_v5) = Cert.Spec.src (F := Ideal) (W (Proc.devRef .tc main_arg1)) := by
  after_results_simp <;> rfl

theorem s0_v6 : StableHlo.after hostOps0 W (Proc.devRef .tc main_v6) = Cert.Spec.dst (F := Ideal) (W (Proc.devRef .tc main_arg1)) := by
  after_results_simp <;> rfl

theorem s0_v12 : StableHlo.after hostOps0 W (Proc.devRef .tc main_v12)
    = cmpf (F := Ideal) (φ := .f32) .ogt (Cert.Spec.deg (F := Ideal) (W (Proc.devRef .tc main_arg1))) zeroN := by
  after_results_simp <;> rfl

theorem s0_v13 : StableHlo.after hostOps0 W (Proc.devRef .tc main_v13)
    = Host.rsqrt (F := Ideal) (φ := .f32) (Cert.Spec.deg (F := Ideal) (W (Proc.devRef .tc main_arg1))) := by
  after_results_simp <;> rfl

theorem s0_cst2 : StableHlo.after hostOps0 W (Proc.devRef .tc main_cst_2) = zero0 := by
  after_results_simp <;> rfl

/-! ### The second stretch: the inverse square roots of the degrees -/

theorem s1_v14 (ei : Cert.Spec.Edges (F := Ideal))
    (h12 : W (Proc.devRef .tc main_v12) = cmpf (F := Ideal) (φ := .f32) .ogt (Cert.Spec.deg (F := Ideal) ei) zeroN)
    (h13 : W (Proc.devRef .tc main_v13) = Host.rsqrt (F := Ideal) (φ := .f32) (Cert.Spec.deg (F := Ideal) ei))
    (hc : W (Proc.devRef .tc main_cst_2) = zero0) :
    StableHlo.after hostOps0_1 W (Proc.devRef .tc main_v14) = Cert.Spec.dinv (F := Ideal) ei := by
  after_results
  simp only [StableHlo.TRef.ofBuf, StableHlo.TRef.toBuf, cast_eq]
  rw [h12, h13, hc]
  rfl

/-! ### The third stretch: the edge weights, the stacked weights and biases taken apart -/

theorem s2_v30 (ei : Cert.Spec.Edges (F := Ideal))
    (hs : W (Proc.devRef .tc main_v5) = Cert.Spec.src (F := Ideal) ei)
    (hd : W (Proc.devRef .tc main_v6) = Cert.Spec.dst (F := Ideal) ei)
    (h14 : W (Proc.devRef .tc main_v14) = Cert.Spec.dinv (F := Ideal) ei) :
    StableHlo.after hostOps0_2 W (Proc.devRef .tc main_v30) = nrmCol ei := by
  after_results_simp
  rw [hs, hd, h14]
  rfl

theorem s2_v32 : StableHlo.after hostOps0_2 W (Proc.devRef .tc main_v32) = Cert.Spec.W0 (F := Ideal) (W (Proc.devRef .tc main_arg5)) := by
  after_results_simp <;> rfl
theorem s2_v34 : StableHlo.after hostOps0_2 W (Proc.devRef .tc main_v34) = Cert.Spec.W1 (F := Ideal) (W (Proc.devRef .tc main_arg5)) := by
  after_results_simp <;> rfl
theorem s2_v36 : StableHlo.after hostOps0_2 W (Proc.devRef .tc main_v36) = Cert.Spec.W2 (F := Ideal) (W (Proc.devRef .tc main_arg5)) := by
  after_results_simp <;> rfl
theorem s2_v38 : StableHlo.after hostOps0_2 W (Proc.devRef .tc main_v38) = Cert.Spec.b0 (F := Ideal) (W (Proc.devRef .tc main_arg6)) := by
  after_results_simp <;> rfl
theorem s2_v40 : StableHlo.after hostOps0_2 W (Proc.devRef .tc main_v40) = Cert.Spec.b1 (F := Ideal) (W (Proc.devRef .tc main_arg6)) := by
  after_results_simp <;> rfl
theorem s2_v42 : StableHlo.after hostOps0_2 W (Proc.devRef .tc main_v42) = Cert.Spec.b2 (F := Ideal) (W (Proc.devRef .tc main_arg6)) := by
  after_results_simp <;> rfl

/-! ### The contents after the three opening stretches -/

variable (m : (ℓ : Loc nD τ sig) → Buf (Elt Ideal) ℓ) (c : Dev nD)

/-- The arguments as launched: node features, edge list, the first layer's weights and bias, the stacked weights and biases. -/
abbrev ax : Cert.Spec.Nodes (F := Ideal) := m ((c.tc : Thread nD τ).loc main_arg0)
abbrev aei : Cert.Spec.Edges (F := Ideal) := m ((c.tc : Thread nD τ).loc main_arg1)
abbrev aWa : Cert.Spec.Mat (F := Ideal) := m ((c.tc : Thread nD τ).loc main_arg3)
abbrev aba : Cert.Spec.Row (F := Ideal) := m ((c.tc : Thread nD τ).loc main_arg4)
abbrev aWs : (⟨Cert.ReferenceIdeal.S3x128x128, .f32⟩ : BufTy).Contents (Elt Ideal) := m ((c.tc : Thread nD τ).loc main_arg5)
abbrev abs : (⟨Cert.ReferenceIdeal.S3x128, .f32⟩ : BufTy).Contents (Elt Ideal) := m ((c.tc : Thread nD τ).loc main_arg6)

theorem V1_v5 : V1 m c main_v5 = Cert.Spec.src (F := Ideal) (aei m c) := s0_v5 (V0 m c)
theorem V1_v6 : V1 m c main_v6 = Cert.Spec.dst (F := Ideal) (aei m c) := s0_v6 (V0 m c)
theorem V1_v12 : V1 m c main_v12 = cmpf (F := Ideal) (φ := .f32) .ogt (Cert.Spec.deg (F := Ideal) (aei m c)) zeroN := s0_v12 (V0 m c)
theorem V1_v13 : V1 m c main_v13 = Host.rsqrt (F := Ideal) (φ := .f32) (Cert.Spec.deg (F := Ideal) (aei m c)) := s0_v13 (V0 m c)
theorem V1_cst2 : V1 m c main_cst_2 = zero0 := s0_cst2 (V0 m c)

theorem V2_v5 : V2 m c main_v5 = Cert.Spec.src (F := Ideal) (aei m c) := (V2_of m c main_v5 (by decide)).trans (V1_v5 m c)
theorem V2_v6 : V2 m c main_v6 = Cert.Spec.dst (F := Ideal) (aei m c) := (V2_of m c main_v6 (by decide)).trans (V1_v6 m c)
theorem V2_v14 : V2 m c main_v14 = Cert.Spec.dinv (F := Ideal) (aei m c) :=
  s1_v14 (V1 m c) _ (V1_v12 m c) (V1_v13 m c) (V1_cst2 m c)
theorem V2_arg5 : V2 m c main_arg5 = aWs m c := (V2_of m c main_arg5 (by decide)).trans (V1_of m c main_arg5 (by decide))
theorem V2_arg6 : V2 m c main_arg6 = abs m c := (V2_of m c main_arg6 (by decide)).trans (V1_of m c main_arg6 (by decide))

/-- The edge sources, the edge destinations and the edge weights, as every layer finds them. -/
theorem V3_v5 : V3 m c main_v5 = Cert.Spec.src (F := Ideal) (aei m c) := (V3_of m c main_v5 (by decide)).trans (V2_v5 m c)
theorem V3_v6 : V3 m c main_v6 = Cert.Spec.dst (F := Ideal) (aei m c) := (V3_of m c main_v6 (by decide)).trans (V2_v6 m c)
theorem V3_v30 : V3 m c main_v30 = nrmCol (aei m c) := s2_v30 (V2 m c) _ (V2_v5 m c) (V2_v6 m c) (V2_v14 m c)

/-- The three later layers' weight matrices and biases. -/
theorem V3_v32 : V3 m c main_v32 = Cert.Spec.W0 (F := Ideal) (aWs m c) := (s2_v32 (V2 m c)).trans (congrArg (Cert.Spec.W0 (F := Ideal)) (V2_arg5 m c))
theorem V3_v34 : V3 m c main_v34 = Cert.Spec.W1 (F := Ideal) (aWs m c) := (s2_v34 (V2 m c)).trans (congrArg (Cert.Spec.W1 (F := Ideal)) (V2_arg5 m c))
theorem V3_v36 : V3 m c main_v36 = Cert.Spec.W2 (F := Ideal) (aWs m c) := (s2_v36 (V2 m c)).trans (congrArg (Cert.Spec.W2 (F := Ideal)) (V2_arg5 m c))
theorem V3_v38 : V3 m c main_v38 = Cert.Spec.b0 (F := Ideal) (abs m c) := (s2_v38 (V2 m c)).trans (congrArg (Cert.Spec.b0 (F := Ideal)) (V2_arg6 m c))
theorem V3_v40 : V3 m c main_v40 = Cert.Spec.b1 (F := Ideal) (abs m c) := (s2_v40 (V2 m c)).trans (congrArg (Cert.Spec.b1 (F := Ideal)) (V2_arg6 m c))
theorem V3_v42 : V3 m c main_v42 = Cert.Spec.b2 (F := Ideal) (abs m c) := (s2_v42 (V2 m c)).trans (congrArg (Cert.Spec.b2 (F := Ideal)) (V2_arg6 m c))

/-- The arguments the first layer reads are as launched. -/
theorem V3_arg0 : V3 m c main_arg0 = ax m c :=
  (V3_of m c main_arg0 (by decide)).trans ((V2_of m c main_arg0 (by decide)).trans (V1_of m c main_arg0 (by decide)))
theorem V3_arg3 : V3 m c main_arg3 = aWa m c :=
  (V3_of m c main_arg3 (by decide)).trans ((V2_of m c main_arg3 (by decide)).trans (V1_of m c main_arg3 (by decide)))
theorem V3_arg4 : V3 m c main_arg4 = aba m c :=
  (V3_of m c main_arg4 (by decide)).trans ((V2_of m c main_arg4 (by decide)).trans (V1_of m c main_arg4 (by decide)))

end Cert.KernelIdeal.Value

end
-- ==== Proof.KI.Layer0Val.lean ====
/-
  What the projection region leaves in its output array, over the extended reals: the blocks the ten grid
  points write back tile the array, and each block is the matrix product of the row block with the weights,
  so the array is the host's matrix product of the two input arrays.
-/
import proofs.«404915_j30949534335549_1_alg».proof.Proof.KI.Layer0
import proofs.«404915_j30949534335549_1_alg».proof.Proof.Spec
import proofs.«404915_j30949534335549_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The two index maps of a one-axis contraction, coordinate by coordinate -/

theorem hz : (![0, 0] : Fin 2 → Nat) = fun _ => 0 := funext fun a => by fin_cases a <;> rfl

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at an index: row (j 0) of the row block against column (j 1) of the weights. A change of
    float format is the identity over the extended reals, and the product accumulates into zero. -/
theorem pay_apply (x : Vec Ideal S5000x128 .f32) (w : Vec Ideal S128x128 .f32) (j : S5000x128.Idx) :
    k0_pay1 (F := Ideal) x w j = ∑ k : Fin 128, x (ix2 (j 0) k) * w (ix2 k (j 1)) := by
  unfold k0_pay1
  simp only [matmul, shapeCast_self]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = ix2 (j 0) k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx j ((contrEquiv1 dot_S5000x128_S128x128_S5000x128_1_0_0_1_n_n 128 rfl rfl).symm k) = ix2 k (j 1) := funext fun a => Fin.ext (by
    match a with
    | ⟨0, _⟩ => exact (rhs_blk_0 _ _).trans hk
    | ⟨1, _⟩ => exact rhs_blk_1 _ _)
  rw [el, er]
  rfl

/-! ## The host's product at an index -/

theorem lhs_arr_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhs_arr_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhs_arr_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhs_arr_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The host's projection at an index: row (i 0) of the features against column (i 1) of the weights. -/
theorem proj_apply (h : (⟨S50000x128, .f32⟩ : BufTy).Contents (Elt Ideal)) (W : (⟨S128x128, .f32⟩ : BufTy).Contents (Elt Ideal)) (i : S50000x128.Idx) :
    Cert.Spec.proj (F := Ideal) h W i = ∑ k : Fin 128, h (ix2 (i 0) k) * W (ix2 k (i 1)) := by
  unfold Cert.Spec.proj
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((contrEquiv1 Cert.ReferenceIdeal.dot_S50000x128_S128x128_S50000x128_1_0_0_1_n_n 128 rfl rfl).symm k) = ix2 (i 0) k := funext fun a => Fin.ext (by
    match a with
    | ⟨0, _⟩ => exact lhs_arr_0 _ _
    | ⟨1, _⟩ => exact (lhs_arr_1 _ _).trans hk)
  have er : Cert.ReferenceIdeal.dot_S50000x128_S128x128_S50000x128_1_0_0_1_n_n.rhsIdx i ((contrEquiv1 Cert.ReferenceIdeal.dot_S50000x128_S128x128_S50000x128_1_0_0_1_n_n 128 rfl rfl).symm k) = ix2 k (i 1) := funext fun a => Fin.ext (by
    match a with
    | ⟨0, _⟩ => exact (rhs_arr_0 _ _).trans hk
    | ⟨1, _⟩ => exact rhs_arr_1 _ _)
  rw [el, er]
  rfl

/-! ## From the blocks to the array -/

/-- The whole-array function the region computes: the host's product of the two input arrays as found. -/
abbrev G (V : (c : Dev nD) → (b : Ref sig .tc) → Buf (Elt Ideal) ((c : Thread nD τ).loc b)) (c : Dev nD) :
    Buf (Elt Ideal) ((cfg0.win 2).arr.view.loc (c.tc : Thread nD τ)) :=
  Cert.Spec.proj (F := Ideal) (V c (Pipeline.arrRef spec0 0)) (V c (Pipeline.arrRef spec0 1))

/-- The printed index maps over the grid: the row block and the output block move together, one block of rows per
    point; the weights' block stays at the origin. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- A block product is a block of the whole product: if the row block holds rows e y 0 of the features and the
    weights' block holds the weights, the block product at y is the whole product at e y. -/
theorem block_eq (hA : (⟨S50000x128, .f32⟩ : BufTy).Contents (Elt Ideal)) (W : (⟨S128x128, .f32⟩ : BufTy).Contents (Elt Ideal))
    (x : Vec Ideal S5000x128 .f32) (w : Vec Ideal S128x128 .f32) (e : S5000x128.Idx → S50000x128.Idx)
    (hx : ∀ (y : S5000x128.Idx) (k : Fin 128), x (ix2 (y 0) k) = hA (ix2 (e y 0) k))
    (hw : ∀ (y : S5000x128.Idx) (k : Fin 128), w (ix2 k (y 1)) = W (ix2 k (e y 1))) (y : S5000x128.Idx) :
    k0_pay1 (F := Ideal) x w y = Cert.Spec.proj (F := Ideal) hA W (e y) := by
  rw [pay_apply, proj_apply]
  exact Finset.sum_congr rfl fun k _ => by rw [hx, hw]

/-- What point t writes back is block t of the product of the whole arrays. -/
theorem flushed_eq (V : (c : Dev nD) → (b : Ref sig .tc) → Buf (Elt Ideal) ((c : Thread nD τ).loc b)) (c : Dev nD)
    (t : Fin cfg0.N) :
    (dat (F := Ideal) V c).flushed 2 t = ((cfg0.win 2).blk t).view.read (Elt Ideal) (G V c) := by
  show (cfg0.win 2).cut (grid0.coords t) ((dat (F := Ideal) V c).after 2 t) = _
  rw [after_out]
  unfold prodBlock
  rw [View.canon_unit_zero hz]
  simp only [View.ld_unit_zero (S := S5000x128) hz, View.ld_unit_zero (S := S128x128) hz]
  obtain ⟨e0, e1, e2, e3, e4, e5⟩ := idx_facts t
  funext y
  refine block_eq (V c (Pipeline.arrRef spec0 0)) (V c (Pipeline.arrRef spec0 1)) (blk V c 0 t) (blk V c 1 t)
    (fun y => ((cfg0.win 2).blk t).view.emb y) (fun y k => ?_) (fun y k => ?_) y
  · show V c (Pipeline.arrRef spec0 0) (((cfg0.win 0).blk t).view.emb (ix2 (y 0) k)) = _
    refine congrArg _ (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · show V c (Pipeline.arrRef spec0 1) (((cfg0.win 1).blk t).view.emb (ix2 k (y 1))) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- Every row of the array is in the block of the point that is its quotient by the block's height. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by show _ < 10; omega
  refine ⟨⟨(i 0).val / 5000, ht⟩, flush0_2 _, ?_⟩
  obtain ⟨-, -, -, -, e4, e5⟩ := idx_facts ⟨(i 0).val / 5000, ht⟩
  rw [mem_blk]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4]; show (i 0).val / 5000 * 5000 ≤ (i 0).val ∧ (i 0).val < (i 0).val / 5000 * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; rw [e5]; omega

/-- The output array after the region is the product of the node features and the weight matrix. -/
theorem out_eq (V : (c : Dev nD) → (b : Ref sig .tc) → Buf (Elt Ideal) ((c : Thread nD τ).loc b)) (c : Dev nD) :
    (dat (F := Ideal) V c).arrAt 2 cfg0.N
      = Cert.Spec.proj (F := Ideal) (V c (Pipeline.arrRef spec0 0)) (V c (Pipeline.arrRef spec0 1)) :=
  (dat (F := Ideal) V c).arrAt_eq_of_cover 2 (G V c) (fun t _ => flushed_eq V c t) cover

end Cert.KernelIdeal.Layer0

end
-- ==== Proof.KI.KernelValLayer.lean ====
/-
  The four graph-convolution layers of the kernel program over the extended reals. Each layer is a projection
  (a kernel region, whose output array is the product of the layer's input by its weight matrix) followed by two
  host stretches: the projected features are sent along every edge with the edge's weight and summed at the
  destinations, the bias is added, and the result is clipped at zero. Reading the buffers item by item, the
  buffer a layer leaves is the specification's layer applied to the buffer the layer before it left; the edge
  ends, the edge weights, the weight matrices and the biases are read where the opening stretches left them,
  since no later item writes them.
-/
import proofs.«404915_j30949534335549_1_alg».proof.Proof.KI.KernelValNorm
import proofs.«404915_j30949534335549_1_alg».proof.Proof.KI.Outs
import proofs.«404915_j30949534335549_1_alg».proof.Proof.KI.Layer0Val
import proofs.«404915_j30949534335549_1_alg».proof.Proof.KI.Layer1Val
import proofs.«404915_j30949534335549_1_alg».proof.Proof.KI.Layer2Val
import proofs.«404915_j30949534335549_1_alg».proof.Proof.KI.Layer3Val

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.SpecParts

variable (W : Valuation τ sig (Elt Ideal))

/-! ### The two host stretches of each layer, from any contents -/

/-- First layer: its long stretch leaves the sum over the edges plus the bias. -/
theorem sA0 (ei : Cert.Spec.Edges (F := Ideal))
    (hs : W (Proc.devRef .tc main_v5) = Cert.Spec.src (F := Ideal) ei)
    (hd : W (Proc.devRef .tc main_v6) = Cert.Spec.dst (F := Ideal) ei)
    (hn : W (Proc.devRef .tc main_v30) = nrmCol ei) :
    StableHlo.after hostOps1 W (Proc.devRef .tc main_v58)
      = preact (W (Proc.devRef .tc main_v43)) (W (Proc.devRef .tc main_arg4)) ei := by
  after_results_simp
  rw [hs, hd, hn]
  rfl

/-- First layer: its short stretch clips at zero. -/
theorem sB0 : StableHlo.after hostOps1_1 W (Proc.devRef .tc main_v59)
    = maximumf (F := Ideal) (φ := .f32) (W (Proc.devRef .tc main_v58)) zeroNF := by
  after_results
  simp only [StableHlo.TRef.ofBuf, StableHlo.TRef.toBuf, cast_eq]

/-- Second layer: the sum over the edges plus the bias. -/
theorem sA1 (ei : Cert.Spec.Edges (F := Ideal))
    (hs : W (Proc.devRef .tc main_v5) = Cert.Spec.src (F := Ideal) ei)
    (hd : W (Proc.devRef .tc main_v6) = Cert.Spec.dst (F := Ideal) ei)
    (hn : W (Proc.devRef .tc main_v30) = nrmCol ei) :
    StableHlo.after hostOps2 W (Proc.devRef .tc main_v75)
      = preact (W (Proc.devRef .tc main_v60)) (W (Proc.devRef .tc main_v38)) ei := by
  after_results_simp
  rw [hs, hd, hn]
  rfl

/-- Second layer: the clip at zero. -/
theorem sB1 : StableHlo.after hostOps2_1 W (Proc.devRef .tc main_v76)
    = maximumf (F := Ideal) (φ := .f32) (W (Proc.devRef .tc main_v75)) zeroNF := by
  after_results
  simp only [StableHlo.TRef.ofBuf, StableHlo.TRef.toBuf, cast_eq]

/-- Third layer: the sum over the edges plus the bias. -/
theorem sA2 (ei : Cert.Spec.Edges (F := Ideal))
    (hs : W (Proc.devRef .tc main_v5) = Cert.Spec.src (F := Ideal) ei)
    (hd : W (Proc.devRef .tc main_v6) = Cert.Spec.dst (F := Ideal) ei)
    (hn : W (Proc.devRef .tc main_v30) = nrmCol ei) :
    StableHlo.after hostOps3 W (Proc.devRef .tc main_v92)
      = preact (W (Proc.devRef .tc main_v77)) (W (Proc.devRef .tc main_v40)) ei := by
  after_results_simp
  rw [hs, hd, hn]
  rfl

/-- Third layer: the clip at zero. -/
theorem sB2 : StableHlo.after hostOps3_1 W (Proc.devRef .tc main_v93)
    = maximumf (F := Ideal) (φ := .f32) (W (Proc.devRef .tc main_v92)) zeroNF := by
  after_results
  simp only [StableHlo.TRef.ofBuf, StableHlo.TRef.toBuf, cast_eq]

/-- Fourth layer: the sum over the edges plus the bias. -/
theorem sA3 (ei : Cert.Spec.Edges (F := Ideal))
    (hs : W (Proc.devRef .tc main_v5) = Cert.Spec.src (F := Ideal) ei)
    (hd : W (Proc.devRef .tc main_v6) = Cert.Spec.dst (F := Ideal) ei)
    (hn : W (Proc.devRef .tc main_v30) = nrmCol ei) :
    StableHlo.after hostOps4 W (Proc.devRef .tc main_v109)
      = preact (W (Proc.devRef .tc main_v94)) (W (Proc.devRef .tc main_v42)) ei := by
  after_results_simp
  rw [hs, hd, hn]
  rfl

/-- Fourth layer: the clip at zero. -/
theorem sB3 : StableHlo.after hostOps4_1 W (Proc.devRef .tc main_v110)
    = maximumf (F := Ideal) (φ := .f32) (W (Proc.devRef .tc main_v109)) zeroNF := by
  after_results
  simp only [StableHlo.TRef.ofBuf, StableHlo.TRef.toBuf, cast_eq]

/-! ### The layers, item by item -/

variable (m : (ℓ : Loc nD τ sig) → Buf (Elt Ideal) ℓ) (c : Dev nD)

/-- What the four layers leave, as the specification spells it. -/
abbrev L0 : Cert.Spec.Nodes (F := Ideal) := Cert.Spec.layer (F := Ideal) (ax m c) (aWa m c) (aba m c) (aei m c)
abbrev L1 : Cert.Spec.Nodes (F := Ideal) :=
  Cert.Spec.layer (F := Ideal) (L0 m c) (Cert.Spec.W0 (F := Ideal) (aWs m c)) (Cert.Spec.b0 (F := Ideal) (abs m c)) (aei m c)
abbrev L2 : Cert.Spec.Nodes (F := Ideal) :=
  Cert.Spec.layer (F := Ideal) (L1 m c) (Cert.Spec.W1 (F := Ideal) (aWs m c)) (Cert.Spec.b1 (F := Ideal) (abs m c)) (aei m c)
abbrev L3 : Cert.Spec.Nodes (F := Ideal) :=
  Cert.Spec.layer (F := Ideal) (L2 m c) (Cert.Spec.W2 (F := Ideal) (aWs m c)) (Cert.Spec.b2 (F := Ideal) (abs m c)) (aei m c)

/-! #### The first layer -/

theorem V4_v5 : V4 m (Outs.outs m) c main_v5 = Cert.Spec.src (F := Ideal) (aei m c) :=
  (V4_of m _ c main_v5 (by decide)).trans (V3_v5 m c)
theorem V4_v6 : V4 m (Outs.outs m) c main_v6 = Cert.Spec.dst (F := Ideal) (aei m c) :=
  (V4_of m _ c main_v6 (by decide)).trans (V3_v6 m c)
theorem V4_v30 : V4 m (Outs.outs m) c main_v30 = nrmCol (aei m c) :=
  (V4_of m _ c main_v30 (by decide)).trans (V3_v30 m c)
theorem V4_arg4 : V4 m (Outs.outs m) c main_arg4 = aba m c :=
  (V4_of m _ c main_arg4 (by decide)).trans (V3_arg4 m c)

/-- The first projection leaves the node features times the first weight matrix. -/
theorem V4_v43 : V4 m (Outs.outs m) c main_v43 = Cert.Spec.proj (F := Ideal) (ax m c) (aWa m c) := by
  show Function.update (V3 m c) (Proc.devRef .tc main_v43) (Outs.outs m 4 main_v43 c) (Proc.devRef .tc main_v43) = _
  rw [Function.update_self, Outs.outs_4 m c, Layer0.out_eq]
  exact congrArg₂ (Cert.Spec.proj (F := Ideal)) (V3_arg0 m c) (V3_arg3 m c)

theorem V6_v59 : V6 m (Outs.outs m) c main_v59 = L0 m c := by
  have hA := sA0 (V4 m (Outs.outs m) c) (aei m c) (V4_v5 m c) (V4_v6 m c) (V4_v30 m c)
  rw [V4_v43 m c, V4_arg4 m c] at hA
  exact (sB0 (V5 m (Outs.outs m) c)).trans
    ((congrArg (fun x => maximumf (F := Ideal) (φ := .f32) x zeroNF) hA).trans (spread_eq _ _ _).symm)

/-! #### The second layer -/

theorem V7_v5 : V7 m (Outs.outs m) c main_v5 = Cert.Spec.src (F := Ideal) (aei m c) :=
  (V7_of m _ c main_v5 (by decide)).trans ((V6_of m _ c main_v5 (by decide)).trans ((V5_of m _ c main_v5 (by decide)).trans (V4_v5 m c)))
theorem V7_v6 : V7 m (Outs.outs m) c main_v6 = Cert.Spec.dst (F := Ideal) (aei m c) :=
  (V7_of m _ c main_v6 (by decide)).trans ((V6_of m _ c main_v6 (by decide)).trans ((V5_of m _ c main_v6 (by decide)).trans (V4_v6 m c)))
theorem V7_v30 : V7 m (Outs.outs m) c main_v30 = nrmCol (aei m c) :=
  (V7_of m _ c main_v30 (by decide)).trans ((V6_of m _ c main_v30 (by decide)).trans ((V5_of m _ c main_v30 (by decide)).trans (V4_v30 m c)))
theorem V6_v32 : V6 m (Outs.outs m) c main_v32 = Cert.Spec.W0 (F := Ideal) (aWs m c) :=
  (V6_of m _ c main_v32 (by decide)).trans ((V5_of m _ c main_v32 (by decide)).trans ((V4_of m _ c main_v32 (by decide)).trans (V3_v32 m c)))
theorem V7_v38 : V7 m (Outs.outs m) c main_v38 = Cert.Spec.b0 (F := Ideal) (abs m c) :=
  (V7_of m _ c main_v38 (by decide)).trans ((V6_of m _ c main_v38 (by decide)).trans ((V5_of m _ c main_v38 (by decide)).trans
    ((V4_of m _ c main_v38 (by decide)).trans (V3_v38 m c))))

/-- The second projection leaves the first layer's features times the second weight matrix. -/
theorem V7_v60 : V7 m (Outs.outs m) c main_v60
    = Cert.Spec.proj (F := Ideal) (L0 m c) (Cert.Spec.W0 (F := Ideal) (aWs m c)) := by
  show Function.update (V6 m (Outs.outs m) c) (Proc.devRef .tc main_v60) (Outs.outs m 7 main_v60 c) (Proc.devRef .tc main_v60) = _
  rw [Function.update_self, Outs.outs_7 m c, Layer1.out_eq]
  exact congrArg₂ (Cert.Spec.proj (F := Ideal)) (V6_v59 m c) (V6_v32 m c)

theorem V9_v76 : V9 m (Outs.outs m) c main_v76 = L1 m c := by
  have hA := sA1 (V7 m (Outs.outs m) c) (aei m c) (V7_v5 m c) (V7_v6 m c) (V7_v30 m c)
  rw [V7_v60 m c, V7_v38 m c] at hA
  exact (sB1 (V8 m (Outs.outs m) c)).trans
    ((congrArg (fun x => maximumf (F := Ideal) (φ := .f32) x zeroNF) hA).trans (spread_eq _ _ _).symm)

/-! #### The third layer -/

theorem V10_v5 : V10 m (Outs.outs m) c main_v5 = Cert.Spec.src (F := Ideal) (aei m c) :=
  (V10_of m _ c main_v5 (by decide)).trans ((V9_of m _ c main_v5 (by decide)).trans ((V8_of m _ c main_v5 (by decide)).trans (V7_v5 m c)))
theorem V10_v6 : V10 m (Outs.outs m) c main_v6 = Cert.Spec.dst (F := Ideal) (aei m c) :=
  (V10_of m _ c main_v6 (by decide)).trans ((V9_of m _ c main_v6 (by decide)).trans ((V8_of m _ c main_v6 (by decide)).trans (V7_v6 m c)))
theorem V10_v30 : V10 m (Outs.outs m) c main_v30 = nrmCol (aei m c) :=
  (V10_of m _ c main_v30 (by decide)).trans ((V9_of m _ c main_v30 (by decide)).trans ((V8_of m _ c main_v30 (by decide)).trans (V7_v30 m c)))
theorem V9_v34 : V9 m (Outs.outs m) c main_v34 = Cert.Spec.W1 (F := Ideal) (aWs m c) :=
  (V9_of m _ c main_v34 (by decide)).trans ((V8_of m _ c main_v34 (by decide)).trans ((V7_of m _ c main_v34 (by decide)).trans
    ((V6_of m _ c main_v34 (by decide)).trans ((V5_of m _ c main_v34 (by decide)).trans ((V4_of m _ c main_v34 (by decide)).trans (V3_v34 m c))))))
theorem V10_v40 : V10 m (Outs.outs m) c main_v40 = Cert.Spec.b1 (F := Ideal) (abs m c) :=
  (V10_of m _ c main_v40 (by decide)).trans ((V9_of m _ c main_v40 (by decide)).trans ((V8_of m _ c main_v40 (by decide)).trans
    ((V7_of m _ c main_v40 (by decide)).trans ((V6_of m _ c main_v40 (by decide)).trans ((V5_of m _ c main_v40 (by decide)).trans
      ((V4_of m _ c main_v40 (by decide)).trans (V3_v40 m c)))))))

/-- The third projection leaves the second layer's features times the third weight matrix. -/
theorem V10_v77 : V10 m (Outs.outs m) c main_v77
    = Cert.Spec.proj (F := Ideal) (L1 m c) (Cert.Spec.W1 (F := Ideal) (aWs m c)) := by
  show Function.update (V9 m (Outs.outs m) c) (Proc.devRef .tc main_v77) (Outs.outs m 10 main_v77 c) (Proc.devRef .tc main_v77) = _
  rw [Function.update_self, Outs.outs_10 m c, Layer2.out_eq]
  exact congrArg₂ (Cert.Spec.proj (F := Ideal)) (V9_v76 m c) (V9_v34 m c)

theorem V12_v93 : V12 m (Outs.outs m) c main_v93 = L2 m c := by
  have hA := sA2 (V10 m (Outs.outs m) c) (aei m c) (V10_v5 m c) (V10_v6 m c) (V10_v30 m c)
  rw [V10_v77 m c, V10_v40 m c] at hA
  exact (sB2 (V11 m (Outs.outs m) c)).trans
    ((congrArg (fun x => maximumf (F := Ideal) (φ := .f32) x zeroNF) hA).trans (spread_eq _ _ _).symm)

/-! #### The fourth layer -/

theorem V13_v5 : V13 m (Outs.outs m) c main_v5 = Cert.Spec.src (F := Ideal) (aei m c) :=
  (V13_of m _ c main_v5 (by decide)).trans ((V12_of m _ c main_v5 (by decide)).trans ((V11_of m _ c main_v5 (by decide)).trans (V10_v5 m c)))
theorem V13_v6 : V13 m (Outs.outs m) c main_v6 = Cert.Spec.dst (F := Ideal) (aei m c) :=
  (V13_of m _ c main_v6 (by decide)).trans ((V12_of m _ c main_v6 (by decide)).trans ((V11_of m _ c main_v6 (by decide)).trans (V10_v6 m c)))
theorem V13_v30 : V13 m (Outs.outs m) c main_v30 = nrmCol (aei m c) :=
  (V13_of m _ c main_v30 (by decide)).trans ((V12_of m _ c main_v30 (by decide)).trans ((V11_of m _ c main_v30 (by decide)).trans (V10_v30 m c)))
theorem V9_v36 : V9 m (Outs.outs m) c main_v36 = Cert.Spec.W2 (F := Ideal) (aWs m c) :=
  (V9_of m _ c main_v36 (by decide)).trans ((V8_of m _ c main_v36 (by decide)).trans ((V7_of m _ c main_v36 (by decide)).trans
    ((V6_of m _ c main_v36 (by decide)).trans ((V5_of m _ c main_v36 (by decide)).trans ((V4_of m _ c main_v36 (by decide)).trans (V3_v36 m c))))))
theorem V12_v36 : V12 m (Outs.outs m) c main_v36 = Cert.Spec.W2 (F := Ideal) (aWs m c) :=
  (V12_of m _ c main_v36 (by decide)).trans ((V11_of m _ c main_v36 (by decide)).trans ((V10_of m _ c main_v36 (by decide)).trans (V9_v36 m c)))
theorem V10_v42 : V10 m (Outs.outs m) c main_v42 = Cert.Spec.b2 (F := Ideal) (abs m c) :=
  (V10_of m _ c main_v42 (by decide)).trans ((V9_of m _ c main_v42 (by decide)).trans ((V8_of m _ c main_v42 (by decide)).trans
    ((V7_of m _ c main_v42 (by decide)).trans ((V6_of m _ c main_v42 (by decide)).trans ((V5_of m _ c main_v42 (by decide)).trans
      ((V4_of m _ c main_v42 (by decide)).trans (V3_v42 m c)))))))
theorem V13_v42 : V13 m (Outs.outs m) c main_v42 = Cert.Spec.b2 (F := Ideal) (abs m c) :=
  (V13_of m _ c main_v42 (by decide)).trans ((V12_of m _ c main_v42 (by decide)).trans ((V11_of m _ c main_v42 (by decide)).trans (V10_v42 m c)))

/-- The fourth projection leaves the third layer's features times the fourth weight matrix. -/
theorem V13_v94 : V13 m (Outs.outs m) c main_v94
    = Cert.Spec.proj (F := Ideal) (L2 m c) (Cert.Spec.W2 (F := Ideal) (aWs m c)) := by
  show Function.update (V12 m (Outs.outs m) c) (Proc.devRef .tc main_v94) (Outs.outs m 13 main_v94 c) (Proc.devRef .tc main_v94) = _
  rw [Function.update_self, Outs.outs_13 m c, Layer3.out_eq]
  exact congrArg₂ (Cert.Spec.proj (F := Ideal)) (V12_v93 m c) (V12_v36 m c)

/-- After the four layers the node features are the specification's four layers of the arguments. -/
theorem V15_v110 : V15 m (Outs.outs m) c main_v110 = L3 m c := by
  have hA := sA3 (V13 m (Outs.outs m) c) (aei m c) (V13_v5 m c) (V13_v6 m c) (V13_v30 m c)
  rw [V13_v94 m c, V13_v42 m c] at hA
  exact (sB3 (V14 m (Outs.outs m) c)).trans
    ((congrArg (fun x => maximumf (F := Ideal) (φ := .f32) x zeroNF) hA).trans (spread_eq _ _ _).symm)

end Cert.KernelIdeal.Value

end
-- ==== Proof.KI.PoolArr.lean ====
/-
  The pooled output array after the region: its window has one block, the whole 256 x 128 array, written back
  once, at the last grid point; so the array ends at what the accumulator holds after that point.
-/
import proofs.«404915_j30949534335549_1_alg».proof.Proof.KI.Pool
import Idealize.ShloMosaic.Lib.Pipeline.Value

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A point that writes the output back is the last one. -/
theorem flush_last (t : Fin cfg4.N) (hf : (cfg4.win 2).flush t = true) : t = t4_9 := by
  have hN : t.val < 10 := lt_of_lt_of_eq t.isLt (show cfg4.N = 10 from N_4)
  have h9 := (flush4_2 t).mp hf
  exact Fin.ext (by show t.val = 9; omega)

/-- The output window's one block sits at offset zero along both axes, -/
theorem out_off_zero : (fun a => win4_2.index t4_9 a * main_v112.ty.shape.size a) = fun _ => 0 :=
  funext fun a => by fin_cases a <;> decide

/-- and is as long as the array along both. -/
theorem out_len (a : Fin main_v112.ty.shape.rank) : win4_2.xsize (grid4.coords t4_9) a = main_v112.ty.shape.size a := by
  fin_cases a <;> decide

/-- What the one write-back writes is the accumulator after the last point: the block read through zero
    offsets at the array's own sizes is the array. -/
theorem flushed_eq (V : (c : Dev nD) → (b : Ref sig .tc) → Buf (Elt F) ((c : Thread nD τ).loc b)) (c : Dev nD)
    (t : Fin cfg4.N) (hf : (cfg4.win 2).flush t = true) :
    (dat (F := F) V c).flushed 2 t = ((cfg4.win 2).blk t).view.read (Elt F) (accAfter V c 9) := by
  obtain rfl := flush_last t hf
  show (cfg4.win 2).cut (grid4.coords t4_9) ((dat V c).after 2 t4_9) = _
  rw [after_out]
  exact (Memref.read_access_unit_zero (Elt F) main_v112 out_off_zero
    (fun a => by rw [congrFun out_off_zero a]; exact Nat.le_of_eq (Nat.zero_add _)) (accAfter V c 9)).symm

/-- The pooled output array after the region is the accumulator after the last point. -/
theorem arr_eq_acc (V : (c : Dev nD) → (b : Ref sig .tc) → Buf (Elt F) ((c : Thread nD τ).loc b)) (c : Dev nD) : (dat (F := F) V c).arrAt 2 cfg4.N = accAfter V c 9 :=
  (dat V c).arrAt_eq_of_cover 2 (accAfter V c 9) (flushed_eq V c) fun i =>
    ⟨t4_9, (flush4_2 t4_9).mpr rfl, by
      show i ∈ ((View.whole main_v112).slice (win4_2.rect t4_9)).set
      rw [View.set_slice_whole, Rect.mem_set_unit]
      intro a
      have hz : win4_2.index t4_9 a * win4_2.size a = 0 := congrFun out_off_zero a
      rw [hz, out_len a, Nat.zero_add]
      exact ⟨Nat.zero_le _, (i a).isLt⟩⟩

end Cert.KernelIdeal.Pool

end
-- ==== Proof.KI.PoolValStep.lean ====
/-
  One grid point of the pooling, at one element: the new accumulator at graph g and feature d is the old one
  plus the sum over the block's 5000 rows r of [ids r = g] * feat (r, d), where [·] is 1 or 0 — the product of
  the block's one-hot matrix (rows against graph numbers) with the feature block, contracted over the rows.
-/
import proofs.«404915_j30949534335549_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Pool

open Idealize.ShloMosaic Idealize.ShloMosaic.TcCoe Idealize.ShloMosaic.ValueIdx
open Cert.KernelIdeal Cert.KernelIdeal.Gen

/-- The left operand's row is the contraction index. -/
theorem lhs_pool_0 (i : S256x128.Idx) (q : dot_S5000x256_S5000x128_S256x128_0_0_1_1_n_n.contr.Idx) :
    (dot_S5000x256_S5000x128_S256x128_0_0_1_1_n_n.lhsIdx i q 0).val = (q ⟨0, by decide⟩).val :=
  dot_S5000x256_S5000x128_S256x128_0_0_1_1_n_n.lhsIdx_val_of_single rfl i q
/-- The left operand's column is the result's row (the graph). -/
theorem lhs_pool_1 (i : S256x128.Idx) (q : dot_S5000x256_S5000x128_S256x128_0_0_1_1_n_n.contr.Idx) :
    (dot_S5000x256_S5000x128_S256x128_0_0_1_1_n_n.lhsIdx i q 1).val = (i 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl
/-- The right operand's row is the contraction index. -/
theorem rhs_pool_0 (i : S256x128.Idx) (q : dot_S5000x256_S5000x128_S256x128_0_0_1_1_n_n.contr.Idx) :
    (dot_S5000x256_S5000x128_S256x128_0_0_1_1_n_n.rhsIdx i q 0).val = (q ⟨0, by decide⟩).val :=
  dot_S5000x256_S5000x128_S256x128_0_0_1_1_n_n.rhsIdx_val_of_single rfl i q
/-- The right operand's column is the result's column (the feature). -/
theorem rhs_pool_1 (i : S256x128.Idx) (q : dot_S5000x256_S5000x128_S256x128_0_0_1_1_n_n.contr.Idx) :
    (dot_S5000x256_S5000x128_S256x128_0_0_1_1_n_n.rhsIdx i q 1).val = (i 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

/-- The one-hot entry: 1 where the row's id is the graph's number, else 0. -/
def hot (w : BitVec 32) (g : Fin 256) : EReal := if w = BitVec.ofNat 32 g.val then 1 else 0

/-- The product of the one-hot matrix with the feature block into a zero accumulator, at (g, d). -/
theorem dot_pool_apply (A : FVec Ideal S5000x256 .bf16) (B : FVec Ideal S5000x128 .bf16) (g : Fin 256) (d : Fin 128) :
    matmul dot_S5000x256_S5000x128_S256x128_0_0_1_1_n_n none A B (constant S256x128 .f32 0x00000000#32) (ix2 g d)
      = ∑ r : Fin 5000, A (ix2 r g) * B (ix2 r d) := by
  simp only [matmul]
  rw [Ideal.matmul_constant_zero_apply, ← Equiv.sum_comp (ValueIdx.contrEquiv1 dot_S5000x256_S5000x128_S256x128_0_0_1_1_n_n 5000 rfl rfl).symm]
  refine Finset.sum_congr rfl fun k _ => ?_
  have hk := ValueIdx.contrEquiv1_symm_val dot_S5000x256_S5000x128_S256x128_0_0_1_1_n_n 5000 rfl rfl k
  have el : dot_S5000x256_S5000x128_S256x128_0_0_1_1_n_n.lhsIdx (ix2 g d) ((ValueIdx.contrEquiv1 dot_S5000x256_S5000x128_S256x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x256_S5000x128_S256x128_0_0_1_1_n_n.rhsIdx (ix2 g d) ((ValueIdx.contrEquiv1 dot_S5000x256_S5000x128_S256x128_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]

/-- The one-hot matrix at (r, g), as the kernel builds it: compare the row's id with the column number, widen
    the bit, convert to a float. -/
theorem onehot_apply (ids : Vec Ideal S5000x1 .i32) (r : Fin 5000) (g : Fin 256) :
    (truncf .bf16 (sitofp .f32 (extui 32 (cmpi .eq (broadcastTo S5000x256 (shapeCast S5000x1 ids shapeCasts_S5000x1_S5000x1) broadcasts_S5000x1_S5000x256) (iota .tc S5000x256 32 [1] iota_S5000x256_d1_w32)) natLt_1_32)) bitsLt_bf16_f32 : FVec Ideal S5000x256 .bf16) (ix2 r g)
      = hot (ids (ix2 r 0)) g := by
  rw [truncf_apply, sitofp_apply, extui_apply]
  show FloatOps.sitofp (F := Ideal) .f32 ((IntOp.cmpi .eq (broadcastTo S5000x256 (shapeCast S5000x1 ids shapeCasts_S5000x1_S5000x1) broadcasts_S5000x1_S5000x256 (ix2 r g)) (iota .tc S5000x256 32 [1] iota_S5000x256_d1_w32 (ix2 r g))).setWidth 32) = _
  rw [shapeCast_self, iota_single_apply, broadcastTo_apply ids broadcasts_S5000x1_S5000x256 (ix2 r g) (ix2 r 0) (fun a => by
    match a with
    | ⟨0, _⟩ => show r.val = if (5000 : Nat) = 1 then 0 else r.val; rw [if_neg (by decide)]
    | ⟨1, _⟩ => show (0 : Nat) = if (1 : Nat) = 1 then 0 else g.val; rw [if_pos rfl])]
  show ((((IntOp.cmpi .eq (ids (ix2 r 0)) (BitVec.ofNat 32 g.val)).setWidth 32).toInt : ℝ) : EReal) = _
  unfold hot IntOp.cmpi
  by_cases h : ids (ix2 r 0) = BitVec.ofNat 32 g.val
  · have hb : (ids (ix2 r 0) == BitVec.ofNat 32 g.val) = true := by rw [h]; exact beq_self_eq_true _
    rw [if_pos h, hb]; simp
  · have hb : (ids (ix2 r 0) == BitVec.ofNat 32 g.val) = false := by rw [beq_eq_false_iff_ne]; exact h
    rw [if_neg h, hb]; simp

/-- One point's accumulator at (g, d). -/
theorem pay2_apply (ids : Vec Ideal S5000x1 .i32) (feat : Vec Ideal S5000x128 .f32) (a : Vec Ideal S256x128 .f32) (g : Fin 256) (d : Fin 128) :
    k4_pay2 (F := Ideal) ids feat a (ix2 g d) = a (ix2 g d) + ∑ r : Fin 5000, hot (ids (ix2 r 0)) g * feat (ix2 r d) := by
  unfold k4_pay2
  dsimp only
  rw [shapeCast_self, addf_apply, dot_pool_apply]
  congr 1
  refine Finset.sum_congr rfl fun r _ => ?_
  rw [onehot_apply, truncf_apply, shapeCast_self]

end Cert.KernelIdeal.Pool

end
-- ==== Proof.KI.PoolValSum.lean ====
/-
  The accumulator over the ten grid points, at one element.  Point t reads rows 5000 t .. 5000 t + 4999 of the
  node features and of the ids; each point adds its block's one-hot product; the first point starts from zero.
  So after the last point the accumulator at (g, d) is the sum over all 50000 nodes n of [ids n = g] * feat (n, d):
  the ten block sums are one sum, the nodes being numbered 5000 t + r.
-/
import proofs.«404915_j30949534335549_1_alg».proof.Proof.KI.PoolDefs
import proofs.«404915_j30949534335549_1_alg».proof.Proof.KI.PoolValStep
import Idealize.ShloMosaic.Lib.Pipeline.Value
import Idealize.ShloMosaic.Lib.ValueIdx
import Idealize.ShloMosaic.PureOps.Ideal.Laws

set_option maxRecDepth 16384

noncomputable section

namespace Cert.KernelIdeal.Pool

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The cleared accumulator is zero everywhere. -/
theorem accZero_apply (i : S256x128.Idx) : accZero (F := Ideal) i = 0 := by
  unfold accZero
  rw [View.canon_unit_zero hz2]
  unfold k4_pay1
  rw [shapeCast_self, broadcast_apply]
  exact Ideal.ofBits_zero_f32

/-- One point's step is the body's payload of the three buffers read whole. -/
theorem accStep_eq (ids : Vec Ideal S5000x1 .i32) (feat : Vec Ideal S5000x128 .f32) (a : Vec Ideal S256x128 .f32) :
    accStep ids feat a = k4_pay2 ids feat a := by
  unfold accStep
  rw [View.canon_unit_zero hz2, View.ld_unit_zero (S := S5000x1) hz2, View.ld_unit_zero (S := S5000x128) hz2, View.ld_unit_zero (S := S256x128) hz2]

/-- The index maps at each of the ten points: the feature and id blocks move down one block of rows per point;
    the output block stays. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Point t's feature block at (r, d) is the array at (5000 t + r, d). -/
theorem blk_feat (c : Dev nD) (t : Fin cfg4.N) (r : Fin 5000) (d : Fin 128) (h : 5000 * t.val + r.val < 50000) :
    blk V c 0 t (ix2 r d) = V c main_v110 (ix2 (⟨5000 * t.val + r.val, h⟩ : Fin 50000) d) := by
  obtain ⟨e0, e1, -⟩ := idx_facts4 t
  show V c main_v110 (((cfg4.win 0).blk t).view.emb (ix2 r d)) = _
  refine congrArg (V c main_v110) (funext fun a => Fin.ext ?_)
  match a with
  | ⟨0, _⟩ => show win4_0.index t (0 : Fin 2) * 5000 + 1 * r.val = 5000 * t.val + r.val; omega
  | ⟨1, _⟩ => show win4_0.index t (1 : Fin 2) * 128 + 1 * d.val = d.val; omega

/-- Point t's id block at (r, 0) is the array at (5000 t + r, 0). -/
theorem blk_ids (c : Dev nD) (t : Fin cfg4.N) (r : Fin 5000) (h : 5000 * t.val + r.val < 50000) :
    blk V c 1 t (ix2 r (0 : Fin 1)) = V c main_v111 (ix2 (⟨5000 * t.val + r.val, h⟩ : Fin 50000) (0 : Fin 1)) := by
  obtain ⟨-, -, e0, e1, -⟩ := idx_facts4 t
  show V c main_v111 (((cfg4.win 1).blk t).view.emb (ix2 r (0 : Fin 1))) = _
  refine congrArg (V c main_v111) (funext fun a => Fin.ext ?_)
  match a with
  | ⟨0, _⟩ => show win4_1.index t (0 : Fin 2) * 5000 + 1 * r.val = 5000 * t.val + r.val; omega
  | ⟨1, _⟩ => show win4_1.index t (1 : Fin 2) * 1 + 1 * 0 = 0; omega

/-- What point t adds at (g, d): its 5000 rows' one-hot products (nothing beyond the grid). -/
def part (Id : (⟨2, ![50000, 1]⟩ : Shape).Idx → BitVec 32) (Fe : (⟨2, ![50000, 128]⟩ : Shape).Idx → EReal) (g : Fin 256) (d : Fin 128) (t : ℕ) : EReal :=
  if h : t < 10 then ∑ r : Fin 5000, hot (Id (ix2 (⟨5000 * t + r.val, by have := r.isLt; omega⟩ : Fin 50000) (0 : Fin 1))) g * Fe (ix2 (⟨5000 * t + r.val, by have := r.isLt; omega⟩ : Fin 50000) d) else 0

/-- One step at (g, d), the blocks read off the arrays. -/
theorem step_apply (c : Dev nD) (t : Fin cfg4.N) (a : Vec Ideal S256x128 .f32) (g : Fin 256) (d : Fin 128) :
    accStep (blk V c 1 t) (blk V c 0 t) a (ix2 g d) = a (ix2 g d) + part (V c main_v111) (V c main_v110) g d t.val := by
  have ht : t.val < 10 := by have := t.isLt; have hN : cfg4.N = 10 := N_4; omega
  rw [accStep_eq, pay2_apply, part, dif_pos ht]
  refine congrArg (a (ix2 g d) + ·) (Finset.sum_congr rfl fun r _ => ?_)
  rw [blk_ids V c t r (by have := r.isLt; omega), blk_feat V c t r d (by have := r.isLt; omega)]

/-- The accumulator after point n at (g, d): the parts of the points up to n. -/
theorem accAfter_apply (c : Dev nD) (g : Fin 256) (d : Fin 128) : ∀ n : ℕ, n < 10 →
    accAfter V c n (ix2 g d) = ∑ t ∈ Finset.range (n + 1), part (V c main_v111) (V c main_v110) g d t
  | 0, _ => by
    show accStep (blk V c 1 t4_0) (blk V c 0 t4_0) accZero (ix2 g d) = _
    rw [step_apply, accZero_apply, zero_add, Finset.sum_range_one]
    rfl
  | n + 1, hn => by
    have ih := accAfter_apply c g d n (by omega)
    have hN : n + 1 < cfg4.N := by have h10 : cfg4.N = 10 := N_4; omega
    have e : accAfter V c (n + 1) = accStep (blk V c 1 ⟨n + 1, hN⟩) (blk V c 0 ⟨n + 1, hN⟩) (accAfter V c n) := by
      rw [accAfter, dif_pos hN]
    rw [e, step_apply, ih, Finset.sum_range_succ _ (n + 1)]

/-- Ten blocks of 5000 are the 50000 nodes. -/
theorem sum_blocks (f : Fin 50000 → EReal) :
    ∑ t : Fin 10, ∑ r : Fin 5000, f ⟨5000 * t.val + r.val, by have := t.isLt; have := r.isLt; omega⟩ = ∑ n : Fin 50000, f n := by
  rw [← Equiv.sum_comp (finProdFinEquiv (m := 10) (n := 5000)) f, Fintype.sum_prod_type]
  refine Finset.sum_congr rfl fun t _ => Finset.sum_congr rfl fun r _ => congrArg f (Fin.ext ?_)
  show 5000 * t.val + r.val = r.val + 5000 * t.val
  omega

/-- The accumulator after the last point at (g, d): one sum over all nodes. -/
theorem accLast_apply (c : Dev nD) (g : Fin 256) (d : Fin 128) :
    accAfter V c 9 (ix2 g d) = ∑ n : Fin 50000, hot (V c main_v111 (ix2 n (0 : Fin 1))) g * V c main_v110 (ix2 n d) := by
  rw [accAfter_apply V c g d 9 (by decide), Finset.sum_range,
    ← sum_blocks (fun n => hot (V c main_v111 (ix2 n (0 : Fin 1))) g * V c main_v110 (ix2 n d))]
  refine Finset.sum_congr rfl fun t _ => ?_
  rw [part, dif_pos t.isLt]

end Cert.KernelIdeal.Pool

end
-- ==== Proof.KI.PoolValScatter.lean ====
/-
  The host's sum over destinations, at one element.  Update (n, d') of the 50000 x 128 features lands at row
  "the signed value of ids (n, 0)" and column d' of the 256 x 128 result, and is dropped when that row is not
  one of the 256.  So the result at (g, d) is the sum, over the nodes n whose id read signed is g, of
  feat (n, d) — and for g below 256 "read signed is g" says the id word is the word of g.
-/
import proofs.«404915_j30949534335549_1_alg».proof.Proof.Spec
import proofs.«404915_j30949534335549_1_alg».proof.Proof.Gen.ReferenceIdeal
import proofs.«404915_j30949534335549_1_alg».proof.Proof.KI.PoolValStep
import Idealize.ShloMosaic.Lib.ValueIdx
import Idealize.ShloMosaic.PureOps.Ideal.Laws

set_option maxRecDepth 16384

noncomputable section

namespace Cert.KernelIdeal.Pool

open Idealize.ShloMosaic Idealize.ShloMosaic.ValueIdx

/-- The scatter's dimension numbers: rows are inserted, the one index component names the row, columns are the window. -/
abbrev DS : ScatterDims Cert.ReferenceIdeal.S256x128 Cert.ReferenceIdeal.S50000x1 Cert.ReferenceIdeal.S50000x128 :=
  Cert.ReferenceIdeal.scatter_S256x128_S50000x1_S50000x128_1_0_0_1

/-- The window starts, on the row axis, at the signed id of the update's node. -/
theorem start_0 (n : Fin 50000) (d' : Fin 128) (idx : IVec Cert.ReferenceIdeal.S50000x1 32) :
    DS.start (ix2 n d') idx 0 = (idx (ix2 n 0)).toInt := by
  unfold ScatterDims.start
  rw [dif_pos (show (0 : Fin Cert.ReferenceIdeal.S256x128.rank) ∈ DS.scatterDimsToOperandDims by decide)]
  refine congrArg (fun k => (idx k).toInt) (funext fun b => Fin.ext ?_)
  match b with
  | ⟨0, _⟩ => rfl
  | ⟨1, _⟩ => rfl

/-- On the column axis it starts at 0. -/
theorem start_1 (n : Fin 50000) (d' : Fin 128) (idx : IVec Cert.ReferenceIdeal.S50000x1 32) :
    DS.start (ix2 n d') idx 1 = 0 := by
  unfold ScatterDims.start
  rw [dif_neg (show ¬(1 : Fin Cert.ReferenceIdeal.S256x128.rank) ∈ DS.scatterDimsToOperandDims by decide)]

/-- The window coordinate on the (inserted) row axis is 0. -/
theorem window_0 (n : Fin 50000) (d' : Fin 128) : DS.window (ix2 n d') 0 = 0 := by
  unfold ScatterDims.window
  rw [dif_neg (show ¬(0 : Fin Cert.ReferenceIdeal.S256x128.rank) ∈ DS.sKept by decide)]

/-- On the column axis it is the update's column. -/
theorem window_1 (n : Fin 50000) (d' : Fin 128) : DS.window (ix2 n d') 1 = d'.val := by
  unfold ScatterDims.window
  rw [dif_pos (show (1 : Fin Cert.ReferenceIdeal.S256x128.rank) ∈ DS.sKept by decide)]
  rfl

/-- Update (n, d') lands on (g, d) exactly when node n's id, read signed, is g and d' is d. -/
theorem resultIdx_iff (n : Fin 50000) (d' : Fin 128) (idx : IVec Cert.ReferenceIdeal.S50000x1 32) (g : Fin 256) (d : Fin 128) :
    DS.resultIdx? (ix2 n d') idx = some (ix2 g d) ↔ (idx (ix2 n 0)).toInt = (g.val : Int) ∧ d'.val = d.val := by
  have s0 := start_0 n d' idx
  have s1 := start_1 n d' idx
  have w0 := window_0 n d'
  have w1 := window_1 n d'
  have hd' := d'.isLt
  have hg := g.isLt
  have hd := d.isLt
  unfold ScatterDims.resultIdx?
  split
  · rename_i h
    rw [Option.some.injEq]
    constructor
    · intro e
      have e0 : (DS.start (ix2 n d') idx 0 + DS.window (ix2 n d') 0).toNat = g.val := congrArg (fun f => (f 0).val) e
      have e1 : (DS.start (ix2 n d') idx 1 + DS.window (ix2 n d') 1).toNat = d.val := congrArg (fun f => (f 1).val) e
      have h0 : 0 ≤ DS.start (ix2 n d') idx 0 + DS.window (ix2 n d') 0 := (h 0).1
      rw [s0, w0] at e0 h0
      rw [s1, w1] at e1
      constructor <;> omega
    · rintro ⟨e0, e1⟩
      funext a
      apply Fin.ext
      match a with
      | ⟨0, _⟩ => show (DS.start (ix2 n d') idx 0 + DS.window (ix2 n d') 0).toNat = g.val; rw [s0, w0]; omega
      | ⟨1, _⟩ => show (DS.start (ix2 n d') idx 1 + DS.window (ix2 n d') 1).toNat = d.val; rw [s1, w1]; omega
  · rename_i h
    constructor
    · intro e; exact absurd e (by simp)
    · rintro ⟨e0, e1⟩
      exfalso
      apply h
      intro a
      match a with
      | ⟨0, _⟩ => show 0 ≤ DS.start (ix2 n d') idx 0 + DS.window (ix2 n d') 0 ∧ DS.start (ix2 n d') idx 0 + DS.window (ix2 n d') 0 < ((256 : ℕ) : Int); rw [s0, w0]; omega
      | ⟨1, _⟩ => show 0 ≤ DS.start (ix2 n d') idx 1 + DS.window (ix2 n d') 1 ∧ DS.start (ix2 n d') idx 1 + DS.window (ix2 n d') 1 < ((128 : ℕ) : Int); rw [s1, w1]; omega

/-- A 32-bit word reads signed as g (below 256) exactly when it is the word of g. -/
theorem toInt_eq_iff (w : BitVec 32) (g : Fin 256) : w.toInt = (g.val : Int) ↔ w = BitVec.ofNat 32 g.val := by
  have hg := g.isLt
  have hw := w.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-- The per-graph sums at (g, d): the features d of the nodes whose id is g, added up. -/
theorem sumsAt_apply (feat : (⟨Cert.ReferenceIdeal.S50000x128, .f32⟩ : BufTy).Contents (Elt Ideal))
    (ids : (⟨Cert.ReferenceIdeal.S50000x1, .i32⟩ : BufTy).Contents (Elt Ideal)) (g : Fin 256) (d : Fin 128) :
    Cert.Spec.sumsAt (F := Ideal) feat ids (ix2 g d) = ∑ n : Fin 50000, hot (ids (ix2 n 0)) g * feat (ix2 n d) := by
  unfold Cert.Spec.sumsAt
  simp only [Host.scatterAdd]
  rw [Ideal.hostScatterAdd_def]
  unfold Ideal.hostScatterAdd
  show Ideal.ofBits .f32 0x00000000#32 + _ = _
  rw [Ideal.ofBits_zero_f32, zero_add, Finset.sum_filter, sum_idx2]
  refine Finset.sum_congr rfl fun n _ => ?_
  rw [Finset.sum_eq_single d]
  · by_cases hg : ids (ix2 n 0) = BitVec.ofNat 32 g.val
    · rw [if_pos ((resultIdx_iff n d ids g d).2 ⟨(toInt_eq_iff _ g).2 hg, rfl⟩), hot, if_pos hg, one_mul]
    · rw [if_neg (fun h => hg ((toInt_eq_iff _ g).1 ((resultIdx_iff n d ids g d).1 h).1)), hot, if_neg hg, zero_mul]
  · intro b _ hb
    rw [if_neg (fun h => hb (Fin.ext ((resultIdx_iff n b ids g d).1 h).2))]
  · intro h; exact absurd (Finset.mem_univ d) h

end Cert.KernelIdeal.Pool

end
-- ==== Proof.KI.PoolVal.lean ====
/-
  What the pooling region leaves in its output array, over the extended reals: the accumulator after the
  last grid point is, for each graph g and feature d, the sum of the features d of the nodes whose id is g —
  the one-hot products of the ten blocks added up —, which is the host's sum over destinations.
-/
import proofs.«404915_j30949534335549_1_alg».proof.Proof.KI.Pool
import proofs.«404915_j30949534335549_1_alg».proof.Proof.KI.PoolArr
import proofs.«404915_j30949534335549_1_alg».proof.Proof.KI.PoolValSum
import proofs.«404915_j30949534335549_1_alg».proof.Proof.KI.PoolValScatter
import proofs.«404915_j30949534335549_1_alg».proof.Proof.Spec
import proofs.«404915_j30949534335549_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx in
/-- The accumulator after the last point is the per-graph sum of the node features: at (g, d) both are the sum
    over the nodes n of [ids n = g] * feat (n, d). -/
theorem acc_eq_sums (V : (c : Dev nD) → (b : Ref sig .tc) → Buf (Elt Ideal) ((c : Thread nD τ).loc b)) (c : Dev nD) :
    accAfter V c 9 = Cert.Spec.sumsAt (F := Ideal) (V c main_v110) (V c main_v111) := by
  funext i
  obtain ⟨g, d, rfl⟩ : ∃ (g : Fin 256) (d : Fin 128), i = ix2 g d := ⟨i 0, i 1, eq_ix2 i⟩
  rw [accLast_apply, sumsAt_apply]

/-- The output array after the region is the per-graph sum of the node features. -/
theorem out_eq (V : (c : Dev nD) → (b : Ref sig .tc) → Buf (Elt Ideal) ((c : Thread nD τ).loc b)) (c : Dev nD) :
    (dat (F := Ideal) V c).arrAt 2 cfg4.N
      = Cert.Spec.sumsAt (F := Ideal) (V c main_v110) (V c main_v111) :=
  (arr_eq_acc V c).trans (acc_eq_sums V c)

end Cert.KernelIdeal.Pool

end
-- ==== Proof.KI.HeadVal.lean ====
/-
  What the read-out region leaves in its output array, over the extended reals: its one block is the whole
  array, and the body's two matrix products, bias rows and clip are the host's operations of the same name.
-/
import proofs.«404915_j30949534335549_1_alg».proof.Proof.KI.Head
import proofs.«404915_j30949534335549_1_alg».proof.Proof.Spec
import proofs.«404915_j30949534335549_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- The two records of the first product (one per printed program) have the same axes. -/
theorem dot1_eq : Cert.KernelIdeal.dot_S256x128_S128x128_S256x128_1_0_0_1_n_n = Cert.ReferenceIdeal.dot_S256x128_S128x128_S256x128_1_0_0_1_n_n := rfl
/-- So have the two records of the second product. -/
theorem dot2_eq : Cert.KernelIdeal.dot_S256x128_S128x1_S256x1_1_0_0_1_n_n = Cert.ReferenceIdeal.dot_S256x128_S128x1_S256x1_1_0_0_1_n_n := rfl

/-- Over the extended reals the first matrix product into a zero accumulator, its operands passed through a
    change of format, is the host's product: both are the sum over the contracted axis of the products. -/
theorem prod1_eq (p : FVec Ideal S256x128 .f32) (w1 : FVec Ideal S128x128 .f32) (hb : FTy.bf16.bits < FTy.f32.bits) (i : S256x128.Idx) :
    matmul Cert.KernelIdeal.dot_S256x128_S128x128_S256x128_1_0_0_1_n_n none (truncf .bf16 p hb) (truncf .bf16 w1 hb) (constant S256x128 .f32 0x00000000#32) i
      = Host.dotGeneral (F := Ideal) (φ₁ := .f32) (φ₂ := .f32) Cert.ReferenceIdeal.dot_S256x128_S128x128_S256x128_1_0_0_1_n_n none p w1 i := by
  refine (Ideal.matmul_constant_zero_apply _ none _ _ i).trans ?_
  simp only [Host.dotGeneral]
  rw [Ideal.dotGeneral_apply, ← dot1_eq]
  rfl

/-- The bias row added to every row: the kernel's broadcast and the host's read the same element of it. -/
theorem row1_eq (b1 : FVec Ideal S1x128 .f32) (h : S1x128.Broadcasts S256x128)
    (h' : Cert.ReferenceIdeal.S1x128.BroadcastsInDim Cert.ReferenceIdeal.S256x128 ![0, 1]) (i : S256x128.Idx) :
    broadcastTo S256x128 b1 h i = broadcastInDim Cert.ReferenceIdeal.S256x128 ![0, 1] h' b1 i := by
  let k : S1x128.Idx := fun a => match a with
    | ⟨0, _⟩ => ⟨0, Nat.one_pos⟩
    | ⟨1, _⟩ => ⟨(i 1).val, (i 1).isLt⟩
  rw [broadcastTo_apply b1 h i k (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ h' b1 i k (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]

/-- The hidden layer, p · W1 + b1 clipped at zero, is the same in both programs at every index. -/
theorem hidden_eq (p : FVec Ideal S256x128 .f32) (w1 : FVec Ideal S128x128 .f32) (b1 : FVec Ideal S1x128 .f32)
    (hb : FTy.bf16.bits < FTy.f32.bits) (h : S1x128.Broadcasts S256x128)
    (h' : Cert.ReferenceIdeal.S1x128.BroadcastsInDim Cert.ReferenceIdeal.S256x128 ![0, 1])
    (h0 : Cert.ReferenceIdeal.S_.BroadcastsInDim Cert.ReferenceIdeal.S256x128 ![]) (i : S256x128.Idx) :
    maximumf (addf (matmul Cert.KernelIdeal.dot_S256x128_S128x128_S256x128_1_0_0_1_n_n none (truncf .bf16 p hb) (truncf .bf16 w1 hb) (constant S256x128 .f32 0x00000000#32)) (broadcastTo S256x128 b1 h))
        (broadcast S256x128 (FloatOps.ofBits (F := Ideal) .f32 0x00000000#32)) i
      = maximumf (addf (Host.dotGeneral (F := Ideal) (φ₁ := .f32) (φ₂ := .f32) Cert.ReferenceIdeal.dot_S256x128_S128x128_S256x128_1_0_0_1_n_n none p w1) (broadcastInDim Cert.ReferenceIdeal.S256x128 ![0, 1] h' b1))
        (broadcastInDim Cert.ReferenceIdeal.S256x128 ![] h0 (constant (F := Ideal) Cert.ReferenceIdeal.S_ .f32 0x00000000#32)) i := by
  rw [maximumf_apply, maximumf_apply, addf_apply, addf_apply, prod1_eq p w1 hb i, row1_eq b1 h h' i]
  rfl

/-- The second product, of the hidden layer with the weight column, likewise. -/
theorem prod2_eq (m m' : FVec Ideal S256x128 .f32) (hm : ∀ i, m i = m' i) (w2 : FVec Ideal S128x1 .f32) (hb : FTy.bf16.bits < FTy.f32.bits) (j : S256x1.Idx) :
    matmul Cert.KernelIdeal.dot_S256x128_S128x1_S256x1_1_0_0_1_n_n none (truncf .bf16 m hb) (truncf .bf16 w2 hb) (constant S256x1 .f32 0x00000000#32) j
      = Host.dotGeneral (F := Ideal) (φ₁ := .f32) (φ₂ := .f32) Cert.ReferenceIdeal.dot_S256x128_S128x1_S256x1_1_0_0_1_n_n none m' w2 j := by
  refine (Ideal.matmul_constant_zero_apply _ none _ _ j).trans ?_
  simp only [Host.dotGeneral]
  rw [Ideal.dotGeneral_apply, ← dot2_eq]
  exact Finset.sum_congr rfl fun k _ => congrArg (· * _) (hm _)

/-- The one-element bias added to every row of the result. -/
theorem row2_eq (b2 : FVec Ideal S1x1 .f32) (h : S1x1.Broadcasts S256x1)
    (h' : Cert.ReferenceIdeal.S1x1.BroadcastsInDim Cert.ReferenceIdeal.S256x1 ![0, 1]) (j : S256x1.Idx) :
    broadcastTo S256x1 b2 h j = broadcastInDim Cert.ReferenceIdeal.S256x1 ![0, 1] h' b2 j := by
  let k : S1x1.Idx := fun a => match a with
    | ⟨0, _⟩ => ⟨0, Nat.one_pos⟩
    | ⟨1, _⟩ => ⟨0, Nat.one_pos⟩
  rw [broadcastTo_apply b2 h j k (fun a => match a with
      | ⟨0, _⟩ => by show 0 = if (1 : Nat) = 1 then 0 else (j 0).val; rw [if_pos rfl]
      | ⟨1, _⟩ => by show 0 = if (1 : Nat) = 1 then 0 else (j 1).val; rw [if_pos rfl]),
    broadcastInDim_apply _ h' b2 j k (fun a => match a with
      | ⟨0, _⟩ => by show 0 = if (1 : Nat) = 1 then 0 else (j 0).val; rw [if_pos rfl]
      | ⟨1, _⟩ => by show 0 = if (1 : Nat) = 1 then 0 else (j 1).val; rw [if_pos rfl])]

/-- The body's value of five arrays is the read-out of them: the two products are the host's, the format
    changes are the identity over the extended reals, and the bias rows are read at the same elements. -/
theorem pay_eq (p : FVec Ideal S256x128 .f32) (w1 : FVec Ideal S128x128 .f32) (b1 : FVec Ideal S1x128 .f32)
    (w2 : FVec Ideal S128x1 .f32) (b2 : FVec Ideal S1x1 .f32) :
    k5_pay1 (F := Ideal) p w1 b1 w2 b2 = Cert.Spec.readoutRows (F := Ideal) p w1 b1 w2 b2 := by
  funext j
  unfold k5_pay1 Cert.Spec.readoutRows
  simp only [shapeCast_self]
  rw [addf_apply, addf_apply, row2_eq b2 _ _ j]
  exact congrArg (· + _) (prod2_eq _ _ (hidden_eq p w1 b1 _ _ _ _) w2 _ j)

variable (V : (c : Dev nD) → (b : Ref sig .tc) → Buf (Elt Ideal) ((c : Thread nD τ).loc b))

theorem hz : (![0, 0] : Fin 2 → Nat) = fun _ => 0 := funext fun a => by fin_cases a <;> rfl

/-- At the grid's one point every window's block index is zero on both axes: each block starts at its
    array's origin. -/
theorem idx_facts : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The pooled features' one block is the whole array. -/
theorem blk_0 (c : Dev nD) (t : Fin cfg5.N) : blk V c 0 t = V c main_v121 := by
  obtain ⟨e0, e1, -⟩ := idx_facts t
  funext j
  show V c main_v121 (((cfg5.win 0).blk t).view.emb j) = V c main_v121 j
  refine congrArg (V c main_v121) (funext fun a => Fin.ext ?_)
  match a with
  | ⟨0, _⟩ => show win5_0.index t (0 : Fin 2) * 256 + 1 * (j 0).val = (j 0).val; omega
  | ⟨1, _⟩ => show win5_0.index t (1 : Fin 2) * 128 + 1 * (j 1).val = (j 1).val; omega

/-- The first weight matrix's one block is the whole array. -/
theorem blk_1 (c : Dev nD) (t : Fin cfg5.N) : blk V c 1 t = V c main_arg7 := by
  obtain ⟨-, -, e0, e1, -⟩ := idx_facts t
  funext j
  show V c main_arg7 (((cfg5.win 1).blk t).view.emb j) = V c main_arg7 j
  refine congrArg (V c main_arg7) (funext fun a => Fin.ext ?_)
  match a with
  | ⟨0, _⟩ => show win5_1.index t (0 : Fin 2) * 128 + 1 * (j 0).val = (j 0).val; omega
  | ⟨1, _⟩ => show win5_1.index t (1 : Fin 2) * 128 + 1 * (j 1).val = (j 1).val; omega

/-- The first bias row's one block is the whole array. -/
theorem blk_2 (c : Dev nD) (t : Fin cfg5.N) : blk V c 2 t = V c main_v122 := by
  obtain ⟨-, -, -, -, e0, e1, -⟩ := idx_facts t
  funext j
  show V c main_v122 (((cfg5.win 2).blk t).view.emb j) = V c main_v122 j
  refine congrArg (V c main_v122) (funext fun a => Fin.ext ?_)
  match a with
  | ⟨0, _⟩ => show win5_2.index t (0 : Fin 2) * 1 + 1 * (j 0).val = (j 0).val; omega
  | ⟨1, _⟩ => show win5_2.index t (1 : Fin 2) * 128 + 1 * (j 1).val = (j 1).val; omega

/-- The weight column's one block is the whole array. -/
theorem blk_3 (c : Dev nD) (t : Fin cfg5.N) : blk V c 3 t = V c main_arg9 := by
  obtain ⟨-, -, -, -, -, -, e0, e1, -⟩ := idx_facts t
  funext j
  show V c main_arg9 (((cfg5.win 3).blk t).view.emb j) = V c main_arg9 j
  refine congrArg (V c main_arg9) (funext fun a => Fin.ext ?_)
  match a with
  | ⟨0, _⟩ => show win5_3.index t (0 : Fin 2) * 128 + 1 * (j 0).val = (j 0).val; omega
  | ⟨1, _⟩ => show win5_3.index t (1 : Fin 2) * 1 + 1 * (j 1).val = (j 1).val; omega

/-- The one-element bias's one block is the whole array. -/
theorem blk_4 (c : Dev nD) (t : Fin cfg5.N) : blk V c 4 t = V c main_v123 := by
  obtain ⟨-, -, -, -, -, -, -, -, e0, e1, -⟩ := idx_facts t
  funext j
  show V c main_v123 (((cfg5.win 4).blk t).view.emb j) = V c main_v123 j
  refine congrArg (V c main_v123) (funext fun a => Fin.ext ?_)
  match a with
  | ⟨0, _⟩ => show win5_4.index t (0 : Fin 2) * 1 + 1 * (j 0).val = (j 0).val; omega
  | ⟨1, _⟩ => show win5_4.index t (1 : Fin 2) * 1 + 1 * (j 1).val = (j 1).val; omega

/-- What the one point writes back is the one block, the whole, of the read-out of the five arrays. -/
theorem flushed_eq (c : Dev nD) (t : Fin cfg5.N) :
    (dat (F := Ideal) V c).flushed 5 t = ((cfg5.win 5).blk t).view.read (Elt Ideal)
      (Cert.Spec.readoutRows (F := Ideal) (V c main_v121) (V c main_arg7) (V c main_v122) (V c main_arg9) (V c main_v123)) := by
  show (cfg5.win 5).cut (grid5.coords t) ((dat V c).after 5 t) = _
  rw [after_out]
  unfold headBlock
  rw [View.canon_unit_zero hz]
  simp only [View.ld_unit_zero (S := S256x128) hz, View.ld_unit_zero (S := S128x128) hz, View.ld_unit_zero (S := S1x128) hz,
    View.ld_unit_zero (S := S128x1) hz, View.ld_unit_zero (S := S1x1) hz]
  rw [pay_eq, blk_0, blk_1, blk_2, blk_3, blk_4]
  obtain ⟨-, -, -, -, -, -, -, -, -, -, e0, e1⟩ := idx_facts t
  funext j
  show Cert.Spec.readoutRows (F := Ideal) (V c main_v121) (V c main_arg7) (V c main_v122) (V c main_arg9) (V c main_v123) j
    = Cert.Spec.readoutRows (F := Ideal) (V c main_v121) (V c main_arg7) (V c main_v122) (V c main_arg9) (V c main_v123) (((cfg5.win 5).blk t).view.emb j)
  refine congrArg _ (funext fun a => Fin.ext ?_)
  match a with
  | ⟨0, _⟩ => show (j 0).val = win5_5.index t (0 : Fin 2) * 256 + 1 * (j 0).val; omega
  | ⟨1, _⟩ => show (j 1).val = win5_5.index t (1 : Fin 2) * 1 + 1 * (j 1).val; omega

/-- The output array after the region is the read-out of the pooled features. -/
theorem out_eq (V : (c : Dev nD) → (b : Ref sig .tc) → Buf (Elt Ideal) ((c : Thread nD τ).loc b)) (c : Dev nD) :
    (dat (F := Ideal) V c).arrAt 5 cfg5.N
      = Cert.Spec.readoutRows (F := Ideal) (V c main_v121) (V c main_arg7) (V c main_v122) (V c main_arg9) (V c main_v123) := by
  refine (dat (F := Ideal) V c).arrAt_eq_of_cover 5 _ (fun t _ => flushed_eq V c t) (fun i => ⟨t5_0, flush5_5 t5_0, ?_⟩)
  show i ∈ ((View.whole main_v124).slice (win5_5.rect t5_0)).set
  rw [View.set_slice_whole, Rect.mem_set_unit]
  obtain ⟨-, -, -, -, -, -, -, -, -, -, e0, e1⟩ := idx_facts t5_0
  intro a
  match a with
  | ⟨0, _⟩ =>
    show win5_5.index t5_0 (0 : Fin 2) * 256 ≤ (i 0).val ∧ (i 0).val < win5_5.index t5_0 (0 : Fin 2) * 256 + 256
    have h : (i 0).val < 256 := (i 0).isLt
    omega
  | ⟨1, _⟩ =>
    show win5_5.index t5_0 (1 : Fin 2) * 1 ≤ (i 1).val ∧ (i 1).val < win5_5.index t5_0 (1 : Fin 2) * 1 + 1
    have h : (i 1).val < 1 := (i 1).isLt
    omega

end Cert.KernelIdeal.Head

end
-- ==== Proof.KI.KernelValTail.lean ====
/-
  The end of the kernel program over the extended reals: from the node features after the fourth layer to the
  result. The graph ids reshaped to a column are the ids broadcast along the rows, so the pooling region leaves
  the per-graph sums; the host then divides by the per-graph counts; the two flat biases reshaped to rows are
  their broadcasts, so the last region leaves the read-out of the means.
-/
import proofs.«404915_j30949534335549_1_alg».proof.Proof.KI.Outs
import proofs.«404915_j30949534335549_1_alg».proof.Proof.KI.PoolVal
import proofs.«404915_j30949534335549_1_alg».proof.Proof.KI.HeadVal
import proofs.«404915_j30949534335549_1_alg».proof.Proof.Spec
import proofs.«404915_j30949534335549_1_alg».proof.Proof.Gen.ReferenceIdeal
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Idealize.ShloMosaic.StableHlo

/-! ## A flat array as a column and as a row -/

/-- A flat array of length a cast to a column [a, 1] is the array broadcast along the rows. -/
theorem cast_col_eq {α : Type} {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext j
  have h1 : (j 1).val < 1 := (j 1).isLt
  have h0 : (j 0).val < a := (j 0).isLt
  rw [shapeCast_apply x h j (ix1 (j 0)) (by
      rw [Shape.rowMajor_val_two, Shape.rowMajor_val_one]
      show (j 0).val = (j 0).val * 1 + (j 1).val
      omega),
    broadcastInDim_apply _ h' x j (ix1 (j 0)) (fun b => match b with
      | ⟨0, _⟩ => by
        show (j 0).val = if a = 1 then 0 else (j 0).val
        split
        · omega
        · rfl)]

/-- A flat array of length a cast to a row [1, a] is the array broadcast along the columns. -/
theorem cast_row_eq {α : Type} {a : ℕ} (x : (⟨1, ![a]⟩ : Shape).Idx → α) (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  have h1 : i.val < a := i.isLt
  rw [shapeCast_a_1a_apply,
    broadcastInDim_apply _ h' x (ix2 u i) (ix1 i) (fun b => match b with
      | ⟨0, _⟩ => by
        show i.val = if a = 1 then 0 else i.val
        split
        · omega
        · rfl)]

variable (m : (ℓ : Loc nD τ sig) → Buf (Elt Ideal) ℓ)

/-! ## The arguments between the items -/

theorem arg2_at15 (c : Dev nD) : V15 m (Outs.outs m) c main_arg2 = m ((c.tc : Thread nD τ).loc main_arg2) :=
  (V16_of m _ c main_arg2 (by decide)).symm.trans <| (V17_of m _ c main_arg2 (by decide)).symm.trans <|
    (V18_of m _ c main_arg2 (by decide)).symm.trans <| (V19_of m _ c main_arg2 (by decide)).symm.trans (V19_main_arg2 m _ c)
theorem arg2_at17 (c : Dev nD) : V17 m (Outs.outs m) c main_arg2 = m ((c.tc : Thread nD τ).loc main_arg2) :=
  (V18_of m _ c main_arg2 (by decide)).symm.trans <| (V19_of m _ c main_arg2 (by decide)).symm.trans (V19_main_arg2 m _ c)
theorem arg8_at17 (c : Dev nD) : V17 m (Outs.outs m) c main_arg8 = m ((c.tc : Thread nD τ).loc main_arg8) :=
  (V18_of m _ c main_arg8 (by decide)).symm.trans <| (V19_of m _ c main_arg8 (by decide)).symm.trans (V19_main_arg8 m _ c)
theorem arg10_at17 (c : Dev nD) : V17 m (Outs.outs m) c main_arg10 = m ((c.tc : Thread nD τ).loc main_arg10) :=
  (V18_of m _ c main_arg10 (by decide)).symm.trans <| (V19_of m _ c main_arg10 (by decide)).symm.trans (V19_main_arg10 m _ c)
theorem arg7_at18 (c : Dev nD) : V18 m (Outs.outs m) c main_arg7 = m ((c.tc : Thread nD τ).loc main_arg7) :=
  (V19_of m _ c main_arg7 (by decide)).symm.trans (V19_main_arg7 m _ c)
theorem arg9_at18 (c : Dev nD) : V18 m (Outs.outs m) c main_arg9 = m ((c.tc : Thread nD τ).loc main_arg9) :=
  (V19_of m _ c main_arg9 (by decide)).symm.trans (V19_main_arg9 m _ c)

/-! ## What the host writes between the regions -/

/-- Before the pooling region the host has reshaped the graph ids to a column. -/
theorem ids_col (c : Dev nD) :
    V16 m (Outs.outs m) c main_v111 = shapeCast S50000x1 (V15 m (Outs.outs m) c main_arg2) shapeCasts_S50000_S50000x1 := by
  show StableHlo.after hostOps4_2 (V15 m (Outs.outs m) c) (Proc.devRef .tc main_v111) = _
  after_results
  rfl

/-- Before the last region the host has divided the per-graph sums by the per-graph counts. -/
theorem mean_at18 (c : Dev nD) :
    V18 m (Outs.outs m) c main_v121
      = Cert.Spec.mean (F := Ideal) (V17 m (Outs.outs m) c main_v112) (V17 m (Outs.outs m) c main_arg2) := by
  show StableHlo.after hostOps5 (V17 m (Outs.outs m) c) (Proc.devRef .tc main_v121) = _
  after_results
  rfl

/-- … and reshaped the first bias to a row, -/
theorem bias1_row (c : Dev nD) :
    V18 m (Outs.outs m) c main_v122 = shapeCast S1x128 (V17 m (Outs.outs m) c main_arg8) shapeCasts_S128_S1x128 := by
  show StableHlo.after hostOps5 (V17 m (Outs.outs m) c) (Proc.devRef .tc main_v122) = _
  after_results
  rfl

/-- … and the second bias to a one-element row. -/
theorem bias2_row (c : Dev nD) :
    V18 m (Outs.outs m) c main_v123 = shapeCast S1x1 (V17 m (Outs.outs m) c main_arg10) shapeCasts_S1_S1x1 := by
  show StableHlo.after hostOps5 (V17 m (Outs.outs m) c) (Proc.devRef .tc main_v123) = _
  after_results
  rfl

/-! ## The two regions and the result -/

/-- The pooling region leaves the per-graph sums of the node features it finds. -/
theorem sums_at17 (c : Dev nD) (X : (⟨Cert.ReferenceIdeal.S50000x128, .f32⟩ : BufTy).Contents (Elt Ideal))
    (hX : V15 m (Outs.outs m) c main_v110 = X) :
    V17 m (Outs.outs m) c main_v112 = Cert.Spec.sums (F := Ideal) X (m ((c.tc : Thread nD τ).loc main_arg2)) := by
  have e0 : V17 m (Outs.outs m) c main_v112 = Outs.outs m 17 main_v112 c := Function.update_self _ _ _
  rw [e0, Outs.outs_17, Pool.out_eq]
  show Cert.Spec.sumsAt (F := Ideal) (V16 m (Outs.outs m) c main_v110) (V16 m (Outs.outs m) c main_v111) = _
  rw [V16_of m _ c main_v110 (by decide), hX, ids_col, arg2_at15]
  unfold Cert.Spec.sums
  exact congrArg _ (cast_col_eq _ _ _)

/-- The result buffer after the last region: the read-out of the per-graph means of the node features the
    pooling region finds. -/
theorem tail_value (m : (ℓ : Loc nD τ sig) → Buf (Elt Ideal) ℓ) (c : Dev nD) (X : (⟨Cert.ReferenceIdeal.S50000x128, .f32⟩ : BufTy).Contents (Elt Ideal)) (hX : V15 m (Outs.outs m) c main_v110 = X) : V19 m (Outs.outs m) c main_v124 = Cert.Spec.readout (F := Ideal) (Cert.Spec.mean (Cert.Spec.sums X (m ((c.tc : Thread nD τ).loc main_arg2))) (m ((c.tc : Thread nD τ).loc main_arg2))) (m ((c.tc : Thread nD τ).loc main_arg7)) (m ((c.tc : Thread nD τ).loc main_arg8)) (m ((c.tc : Thread nD τ).loc main_arg9)) (m ((c.tc : Thread nD τ).loc main_arg10)) := by
  have e0 : V19 m (Outs.outs m) c main_v124 = Outs.outs m 19 main_v124 c := Function.update_self _ _ _
  rw [e0, Outs.outs_19, Head.out_eq]
  show Cert.Spec.readoutRows (F := Ideal) (V18 m (Outs.outs m) c main_v121) (V18 m (Outs.outs m) c main_arg7)
    (V18 m (Outs.outs m) c main_v122) (V18 m (Outs.outs m) c main_arg9) (V18 m (Outs.outs m) c main_v123) = _
  rw [mean_at18, sums_at17 m c X hX, arg2_at17, arg7_at18, bias1_row, arg8_at17, arg9_at18, bias2_row, arg10_at17]
  unfold Cert.Spec.readout
  rw [cast_row_eq _ _ Cert.ReferenceIdeal.Facts₀.bcast_S128_S1x128_1, cast_row_eq _ _ Cert.ReferenceIdeal.Facts₀.bcast_S1_S1x1_1]

end Cert.KernelIdeal.Value

end
-- ==== Proof.KI.KernelVal.lean ====
/-
  The kernel program's result over the extended reals: reading the buffers' contents item by item — each host
  stretch is the specification's operations on what the stretch reads, each region leaves the specification's
  projection, per-graph sum or read-out of what it reads — the result buffer ends at the network's
  specification applied to the program's arguments.
-/
import proofs.«404915_j30949534335549_1_alg».proof.Proof.KI.KernelValLayer
import proofs.«404915_j30949534335549_1_alg».proof.Proof.KI.KernelValTail
import proofs.«404915_j30949534335549_1_alg».proof.Proof.KI.Outs
import proofs.«404915_j30949534335549_1_alg».proof.Proof.KI.Layer0Val
import proofs.«404915_j30949534335549_1_alg».proof.Proof.KI.Layer1Val
import proofs.«404915_j30949534335549_1_alg».proof.Proof.KI.Layer2Val
import proofs.«404915_j30949534335549_1_alg».proof.Proof.KI.Layer3Val
import proofs.«404915_j30949534335549_1_alg».proof.Proof.KI.PoolVal
import proofs.«404915_j30949534335549_1_alg».proof.Proof.KI.HeadVal
import proofs.«404915_j30949534335549_1_alg».proof.Proof.Spec
import proofs.«404915_j30949534335549_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The result buffer after the last region holds the network's value at the arguments. -/
theorem kernel_value (m : (ℓ : Loc nD τ sig) → Buf (Elt Ideal) ℓ) (c : Dev nD) :
    V19 m (Outs.outs m) c main_v124
      = Cert.Spec.model (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  -- the four layers leave the specification's four layers; the pooling, the mean and the read-out follow
  refine (tail_value m c (L3 m c) (V15_v110 m c)).trans ?_
  unfold Cert.Spec.model
  rfl

end Cert.KernelIdeal.Value

end
-- ==== Proof.RefModel.lean ====
/-
  The reference program's result, as its generated run states it, is the network's specification applied to
  the program's arguments: the run's term is the composition of the same host operations.
-/
import proofs.«404915_j30949534335549_1_alg».proof.Proof.RefRun
import proofs.«404915_j30949534335549_1_alg».proof.Proof.Spec
import proofs.«404915_j30949534335549_1_alg».proof.Proof.Gen.ReferenceIdeal

noncomputable section

namespace Cert.RefModel

open Idealize.ShloMosaic Idealize.ShloMosaic.TcCoe Idealize.SL.Sem Cert.ReferenceIdeal

variable {F : FTy → Type} [FloatOps F]

set_option maxRecDepth 8192 in
set_option maxHeartbeats 2000000 in
theorem result_eq (m : (ℓ : Loc nD τ sig) → Buf (Elt F) ℓ) (c : Dev nD) :
    Cert.ReferenceIdeal.RunP.res_main_v212 m c
      = Cert.Spec.model (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.RunP.res_main_v212 Cert.Spec.model Cert.Spec.readout Cert.Spec.mean Cert.Spec.counts Cert.Spec.sums Cert.Spec.sumsAt Cert.Spec.readoutRows
    Cert.Spec.layer Cert.Spec.spread Cert.Spec.proj Cert.Spec.nrm Cert.Spec.dinv Cert.Spec.deg Cert.Spec.col Cert.Spec.wrap Cert.Spec.src Cert.Spec.dst
    Cert.Spec.W0 Cert.Spec.W1 Cert.Spec.W2 Cert.Spec.b0 Cert.Spec.b1 Cert.Spec.b2
  rfl

end Cert.RefModel

end
-- ==== Proof.lean ====
/-
  The certificate of a four-layer graph convolution network with per-graph mean pooling and a two-layer
  read-out: the kernel program (four projection regions, a pooling region with a carried accumulator, a
  read-out region, and the host's gathers and sums over edges between them) against the host reference.

  Frames.  The kernel program, at either instance, is run as a list of segments: each host stretch by the
  host rule, each region by the pipeline rule from its proof data and body triple; the result is that every
  unscoped buffer ends at the contents the items leave one after the other, so the arguments, which no item
  writes, end as launched.  The reference is host operations only; its run is the list of its operations run one after the other.

  Values.  Over the extended reals a change of float format is the identity and every sum is exact.  Each
  projection region leaves the host's matrix product of its inputs; the pooling region's accumulator after
  the last grid point is, per graph and feature, the sum of the features of the nodes with that graph id —
  a one-hot factor is 1 or 0, and 1 * x = x, 0 * x = 0 for every extended real — which is the host's sum
  over destinations; the read-out region leaves the host's read-out.  The host stretches between the
  regions are the reference's own operations on the same operands.  So both programs end at one function
  of the arguments, the network's specification.  No algebraic law beyond these is used, and the
  precondition is not opened.
-/
import proofs.«404915_j30949534335549_1_alg».proof.Defs
import proofs.«404915_j30949534335549_1_alg».proof.Proof.Gen.Kernel
import proofs.«404915_j30949534335549_1_alg».proof.Proof.Gen.KernelIdeal
import proofs.«404915_j30949534335549_1_alg».proof.Proof.Gen.ReferenceIdeal
import proofs.«404915_j30949534335549_1_alg».proof.Proof.Gen.Pre_finite_inputs
import proofs.«404915_j30949534335549_1_alg».proof.Proof.RefRun
import proofs.«404915_j30949534335549_1_alg».proof.Proof.K.Run
import proofs.«404915_j30949534335549_1_alg».proof.Proof.KI.Run
import proofs.«404915_j30949534335549_1_alg».proof.Proof.KI.KernelVal
import proofs.«404915_j30949534335549_1_alg».proof.Proof.RefModel

noncomputable section

namespace Cert.Proof

open Idealize.ShloMosaic Idealize.ShloMosaic.TcCoe Idealize.SL.Sem

/-- The word-level kernel program runs to the end and leaves its arguments as launched. -/
theorem frame_kernel : Cert.frame_Kernel := fun m ρ _ =>
  (θ_run Cert.Kernel.defs _ _).mono (fun _ h c => (h c).2) (Cert.Kernel.Run.run_value (F := Bits) m ρ)

/-- So does its reading over the extended reals. -/
theorem frame_kernelIdeal : Cert.frame_KernelIdeal := fun m ρ _ =>
  (θ_run Cert.KernelIdeal.defs _ _).mono (fun _ h c => (h c).2) (Cert.KernelIdeal.Run.run_value (F := Ideal) m ρ)

/-- The reference is host operations only. -/
theorem frame_reference : Cert.frame_ReferenceIdeal := fun m ρ _ =>
  (θ_run Cert.ReferenceIdeal.defs _ _).mono (fun _ h c => (h c).2) (Cert.ReferenceIdeal.RunP.run (F := Ideal) m ρ)

/-- Both programs end at the network's specification of the arguments. -/
theorem algebraic : Cert.algebraic_KernelIdeal_ReferenceIdeal := by
  intro m ρ m' ρ' _ hagree
  refine ⟨fun c => Cert.Spec.model (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Value.kernel_value m c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.RunP.run (F := Ideal) m' ρ')
    rw [Cert.RefModel.result_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
